-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S100000 32) (main_arg2 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S100000x64 : Shape := ⟨2, ![100000, 64]⟩
abbrev S100000 : Shape := ⟨1, ![100000]⟩
abbrev S64x64 : Shape := ⟨2, ![64, 64]⟩
abbrev S10x1x10000 : Shape := ⟨3, ![10, 1, 10000]⟩
abbrev S_ : Shape := ⟨0, ![]⟩
abbrev S64 : Shape := ⟨1, ![64]⟩
abbrev S1x64 : Shape := ⟨2, ![1, 64]⟩
abbrev S1x1 : Shape := ⟨2, ![1, 1]⟩
abbrev S1x1x10000 : Shape := ⟨3, ![1, 1, 10000]⟩
abbrev S10000x64 : Shape := ⟨2, ![10000, 64]⟩
abbrev S64x1 : Shape := ⟨2, ![64, 1]⟩
abbrev S1x10000 : Shape := ⟨2, ![1, 10000]⟩
abbrev S64x10000 : Shape := ⟨2, ![64, 10000]⟩
abbrev S1 : Shape := ⟨1, ![1]⟩

abbrev nBuf : Space → Nat
  | .hbm => 16
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S64x64, .f32⟩
  | .hbm, ⟨3, _⟩ => ⟨S10x1x10000, .i32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S_, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S64, .f32⟩
  | .hbm, ⟨13, _⟩ => ⟨S1x64, .f32⟩
  | .hbm, ⟨14, _⟩ => ⟨S1x1, .f32⟩
  | .hbm, ⟨15, _⟩ => ⟨S_, .f32⟩
  | .local _ .vmem, ⟨0, _⟩ => ⟨S1x1x10000, .i32⟩
  | .local _ .vmem, ⟨1, _⟩ => ⟨S1x1x10000, .i32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x1, .f32⟩
  | .local _ .vmem, ⟨8, _⟩ => ⟨S64x64, .f32⟩
  | .local _ .vmem, ⟨9, _⟩ => ⟨S64x64, .f32⟩
  | .local _ .vmem, ⟨10, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v47 : BitVec 1 := Scalar.cmpi .eq arg0 c9_i32
  let v48 : BitVec 32 := Scalar.extui v47
  let c0_i32_28 : BitVec 32 := 0#32
  let v49 : BitVec 1 := Scalar.cmpi .ne v48 c0_i32_28
  v49

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x10000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S100000_S10x1x10000 : S100000.ShapeCasts S10x1x10000
  transposes_S64x64_S64x64_1_0 : S64x64.Transposes [1, 0] S64x64
  bcast_S_S64x64 : S_.BroadcastsInDim S64x64 (![] : Fin 0 → Fin S64x64.rank)
  reducesTo_S64x64_S64_d1 : S64x64.ReducesTo [1] S64
  h_S_ : 0 < S_.numel
  bcast_S64_S1x64_1 : S64.BroadcastsInDim S1x64 (![1] : Fin 1 → Fin S1x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x64_S10000x64_0_0 : ∀ a, (![0, 0] : Fin 2 → Nat) a + S10000x64.size a ≤ S10000x64.size a
  h_S10000x64 : 0 < S10000x64.numel
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  iota_S64x1_d0_w32 : S64x1.Iotas .tc 32 [0]
  broadcasts_S1x10000_S64x10000 : S1x10000.Broadcasts S64x10000
  broadcasts_S64x1_S64x10000 : S64x1.Broadcasts S64x10000
  natLt_1_32 : 1 < 32
  reduces_S64x10000_S64 : S64x10000.Reduces [1] S64
  shapeCasts_S64_S64x1 : S64.ShapeCasts S64x1
  iota_S64x64_d0_w32 : S64x64.Iotas .tc 32 [0]
  iota_S64x64_d1_w32 : S64x64.Iotas .tc 32 [1]
  shapeCasts_S64x1_S64 : S64x1.ShapeCasts S64
  reduces_S64x64_S64 : S64x64.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S10000x64_S64x64_S10000x64_1_0_0_1_n_n_wf : DotDims.WF S10000x64 S64x64 S10000x64 [1] [0] [0] [1] [] []
  dot_S64x10000_S10000x64_S64x64_1_0_0_1_n_n_wf : DotDims.WF S64x10000 S10000x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x10000.size a ≤ S10x1x10000.size a
  hwx0_0 : ∀ i : grid0.Coords, EltTy.bits .i32 = 32 ∨ (Rect.block (s := S10x1x10000) S1x1x10000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf

abbrev win0_0 : Pipeline.Window sig grid0 :=
  Pipeline.Window.ofSpec (Memref.whole main_v0) S1x1x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S100000 : Shape := ⟨1, ![100000]⟩
abbrev S64x64 : Shape := ⟨2, ![64, 64]⟩
abbrev S_ : Shape := ⟨0, ![]⟩
abbrev S100000x1 : Shape := ⟨2, ![100000, 1]⟩
abbrev S64 : Shape := ⟨1, ![64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S64x64, .f32⟩
  | .hbm, ⟨3, _⟩ => ⟨S100000x64, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S64x64, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S100000x64, .f32⟩
  | .hbm, ⟨14, _⟩ => ⟨S64x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S_, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x1, .i32⟩
  | .hbm, ⟨25, _⟩ => ⟨S1x64, .i32⟩
  | .hbm, ⟨26, _⟩ => ⟨S100000x64, .i32⟩
  | .hbm, ⟨27, _⟩ => ⟨S100000x64, .i32⟩
  | .hbm, ⟨28, _⟩ => ⟨S100000x64, .i1⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S64, .f32⟩
  | .hbm, ⟨54, _⟩ => ⟨S100000x64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .i1⟩
  | .hbm, ⟨68, _⟩ => ⟨S_, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩
abbrev main_cst_13 : Ref sig .tc := ⟨.hbm, 68, rfl⟩
abbrev main_call2_v0 : Ref sig .tc := ⟨.hbm, 69, rfl⟩
abbrev main_call2_v1 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_cst_15 : Ref sig .tc := ⟨.hbm, 74, rfl⟩
abbrev main_call3_v0 : Ref sig .tc := ⟨.hbm, 75, rfl⟩
abbrev main_call3_v1 : Ref sig .tc := ⟨.hbm, 76, rfl⟩
abbrev main_v46 : Ref sig .tc := ⟨.hbm, 77, rfl⟩
abbrev main_cst_16 : Ref sig .tc := ⟨.hbm, 78, rfl⟩
abbrev main_v47 : Ref sig .tc := ⟨.hbm, 79, rfl⟩
abbrev main_v48 : Ref sig .tc := ⟨.hbm, 80, rfl⟩
abbrev main_cst_17 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  reducesTo_S64x64_S64_d1 : S64x64.ReducesTo [1] S64
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  transposes_S64x64_S64x64_1_0 : S64x64.Transposes [1, 0] S64x64
  bcast_S_S100000x64 : S_.BroadcastsInDim S100000x64 (![] : Fin 0 → Fin S100000x64.rank)
  reducesTo_S100000x64_S64_d0 : S100000x64.ReducesTo [0] S64
  bcast_S_S64 : S_.BroadcastsInDim S64 (![] : Fin 0 → Fin S64.rank)
  reducesTo_S64_S_d0 : S64.ReducesTo [0] S_
  dot_S100000x64_S64x64_S100000x64_1_0_0_1_n_n_wf : DotDims.WF S100000x64 S64x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KSteps.lean ====
import proofs.«123934_g74603581931673_cont_9to1_m_1323_19_alg».proof.Proof.Gen.KernelIdeal.Skeleton

/-!
# What one grid point does to the three accumulators, and what the last point stores

The kernel keeps three arrays between grid points: for every pair (cluster `k`, centroid `j`) the running sum of
the distances and the running sum of the squared distances of `k`'s points to `j`, and for every cluster its
running count. A point adds its block's contribution to each; the last point then folds the three into the loss.
These are the body's own terms, named once so that the per-case facts and the per-entry readings meet on them.
-/

noncomputable section

namespace Cert.KernelIdeal.Acc

open Idealize.ShloMosaic Idealize.SL.Sem Cert.KernelIdeal Cert.KernelIdeal.Gen

variable {F : FTy → Type} [FloatOps F]

/-- The distance sums after a point: what was there plus (one-hot)ᵀ · (d2 · d2^(−1/2)) of the point's block. -/
def step0 (x0 : Vec F S1x1x10000 .i32) (x1 : Vec F S10000x64 .f32) (x2 x3 : Vec F S64x64 .f32) (x4 : Vec F S1x64 .f32)
    (p0 : Vec F S64x64 .f32) : Vec F S64x64 .f32 :=
  k0_pay16 x1 x0 x4 x2 x3 p0

/-- The squared-distance sums after a point: what was there plus (one-hot)ᵀ · d2 of the point's block. -/
def step1 (x0 : Vec F S1x1x10000 .i32) (x1 : Vec F S10000x64 .f32) (x2 x3 : Vec F S64x64 .f32) (x4 : Vec F S1x64 .f32)
    (p1 : Vec F S64x64 .f32) : Vec F S64x64 .f32 :=
  k0_pay1 (k0_pay14 x1 x4 x2 x3) (k0_pay15 x0) p1

/-- The counts after a point: what was there plus the one-hot's row sums. -/
def step2 (x0 : Vec F S1x1x10000 .i32) (p2 : Vec F S64x1 .f32) : Vec F S64x1 .f32 :=
  k0_pay2 (k0_pay15 x0) p2

/-- The loss from the three accumulators, as the last point stores it. -/
def finish (s0 s1 : Vec F S64x64 .f32) (s2 : Vec F S64x1 .f32) : Vec F S1x1 .f32 :=
  k0_pay3 (k0_pay7 s1 s2) (k0_pay8 s0 s1 s2) (k0_pay9 s2) (k0_pay10 s2)

end Cert.KernelIdeal.Acc

end
-- ==== Proof.KPieces.lean ====
import proofs.«123934_g74603581931673_cont_9to1_m_1323_19_alg».proof.Proof.Gen.KernelIdeal.Frame
import proofs.«123934_g74603581931673_cont_9to1_m_1323_19_alg».proof.Proof.KSteps
import Idealize.ShloMosaic.Lib.Pipeline.Value
import Idealize.ShloMosaic.Lib.Tactic

/-!
# The three cases of the body, each as a step

At the first grid point the body clears the three accumulators and then adds the block's contribution; at a middle
point it adds to what the point before left; at the last point it adds and then stores the loss. Here each case's
found contents are identified with `step0`, `step1`, `step2` and `finish`.
-/

set_option maxRecDepth 16384

noncomputable section

namespace Cert.KernelIdeal.Acc

open Idealize.ShloMosaic Idealize.ShloMosaic.TcCoe Idealize.SL.Sem Cert.KernelIdeal Cert.KernelIdeal.Gen

variable {F : FTy → Type} [FloatOps F]

variable (c : Dev nD) (i : grid0.Coords)
  (arg1 : Memref sig .tc .vmem S1x1x10000 .i32) (harg1 : arg1.IsWhole) (arg2 : Memref sig .tc .vmem S10000x64 .f32) (harg2 : arg2.IsWhole)
  (arg3 : Memref sig .tc .vmem S64x64 .f32) (harg3 : arg3.IsWhole) (arg4 : Memref sig .tc .vmem S64x64 .f32) (harg4 : arg4.IsWhole)
  (arg5 : Memref sig .tc .vmem S1x64 .f32) (harg5 : arg5.IsWhole) (arg6 : Memref sig .tc .vmem S1x1 .f32) (harg6 : arg6.IsWhole)
  (arg7 : Memref sig .tc .vmem S64x64 .f32) (harg7 : arg7.IsWhole) (arg8 : Memref sig .tc .vmem S64x64 .f32) (harg8 : arg8.IsWhole)
  (arg9 : Memref sig .tc .vmem S64x1 .f32) (harg9 : arg9.IsWhole)
  (x0 : Vec F S1x1x10000 .i32) (x1 : Vec F S10000x64 .f32) (x2 : Vec F S64x64 .f32) (x3 : Vec F S64x64 .f32) (x4 : Vec F S1x64 .f32)
  (xs0 : Vec F S64x64 .f32) (xs1 : Vec F S64x64 .f32) (xs2 : Vec F S64x1 .f32)

/-- Every access of the body starts at the origin of its array: a rank-two offset is zero on both axes, -/
theorem origin2 : (![0, 0] : Fin 2 → Nat) = fun _ => 0 := funext fun a => by fin_cases a <;> rfl

/-- and the rank-three offset (of the label block) is zero on all three. -/
theorem origin3 : (![0, 0, 0] : Fin 3 → Nat) = fun _ => 0 := funext fun a => by fin_cases a <;> rfl

/-- First point: the distance sums start from the cleared array. -/
theorem sout0_A_0_eq (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 = step0 x0 x1 x2 x3 x4 (k0_pay11 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x64) origin2, View.readCov_unit_zero (S := S64x64) _ origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2]
  rfl

/-- First point: the squared-distance sums start from the cleared array. -/
theorem sout0_A_1_eq (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x0 x1 x2 x3 x4 = step1 x0 x1 x2 x3 x4 (k0_pay12 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x64) origin2, View.readCov_unit_zero (S := S64x64) _ origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2]
  rfl

/-- First point: the counts start from the cleared column. -/
theorem sout0_A_2_eq (hc0 : cond0_0 i) (hc1 : ¬cond0_1 i) :
    sout0_A_2 c i arg1 harg1 arg2 harg2 arg3 harg3 arg4 harg4 arg5 harg5 arg6 harg6 arg7 harg7 arg8 harg8 arg9 harg9 hc0 hc1 x0 x1 x2 x3 x4 = step2 x0 (k0_pay13 (F := F)) := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x1) origin2, View.readCov_unit_zero (S := S64x1) _ origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2]
  rfl

/-- A middle point adds to what the point before left. -/
theorem sout0_B_0_eq (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 xs0 xs1 xs2 = step0 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero (S := S64x64) origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2,
    harg7.read_unread]
  rfl

theorem sout0_B_1_eq (hc0 : ¬cond0_0 i) (hc1 : ¬cond0_1 i) :
    sout0_B_1 c i arg1 harg1 arg2 harg2 arg3 harg3 arg4 harg4 arg5 harg5 arg6 harg6 arg7 harg7 arg8 harg8 arg9 harg9 hc0 hc1 x0 x1 x2 x3 x4 xs0 xs1 xs2 = step1 x0 x1 x2 x3 x4 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero (S := S64x64) origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2,
    harg8.read_unread]
  rfl

theorem sout0_B_2_eq (hc0 : ¬cond0_0 i) (hc1 : ¬cond0_1 i) :
    sout0_B_2 c i arg1 harg1 arg2 harg2 arg3 harg3 arg4 harg4 arg5 harg5 arg6 harg6 arg7 harg7 arg8 harg8 arg9 harg9 hc0 hc1 x0 x1 x2 x3 x4 xs0 xs1 xs2 = step2 x0 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero (S := S64x1) origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2,
    harg9.read_unread, View.ld_unit_zero (S := S64x1) origin2]
  rfl

/-- The last point adds likewise … -/
theorem sout0_C_0_eq (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 xs0 xs1 xs2 = step0 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero (S := S64x64) origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2,
    harg7.read_unread]
  rfl

theorem sout0_C_1_eq (hc0 : ¬cond0_0 i) (hc1 : cond0_1 i) :
    sout0_C_1 c i arg1 harg1 arg2 harg2 arg3 harg3 arg4 harg4 arg5 harg5 arg6 harg6 arg7 harg7 arg8 harg8 arg9 harg9 hc0 hc1 x0 x1 x2 x3 x4 xs0 xs1 xs2 = step1 x0 x1 x2 x3 x4 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero (S := S64x64) origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2,
    harg8.read_unread]
  rfl

theorem sout0_C_2_eq (hc0 : ¬cond0_0 i) (hc1 : cond0_1 i) :
    sout0_C_2 c i arg1 harg1 arg2 harg2 arg3 harg3 arg4 harg4 arg5 harg5 arg6 harg6 arg7 harg7 arg8 harg8 arg9 harg9 hc0 hc1 x0 x1 x2 x3 x4 xs0 xs1 xs2 = step2 x0 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero (S := S64x1) origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2,
    harg9.read_unread, View.ld_unit_zero (S := S64x1) origin2]
  rfl

/-- … and stores the loss computed from the three updated accumulators. -/
theorem out0_C_5_eq (hc0 : ¬cond0_0 i) (hc1 : cond0_1 i) :
    out0_C_5 c i arg1 harg1 arg2 harg2 arg3 harg3 arg4 harg4 arg5 harg5 arg6 harg6 arg7 harg7 arg8 harg8 arg9 harg9 hc0 hc1 x0 x1 x2 x3 x4 xs0 xs1 xs2
      = finish (step0 x0 x1 x2 x3 x4 xs0) (step1 x0 x1 x2 x3 x4 xs1) (step2 x0 xs2) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero (S := S1x1) origin2]
  simp only [View.readAt_eq_ld, harg1.read_unread, harg2.read_unread, harg3.read_unread, harg4.read_unread, harg5.read_unread,
    View.ld_unit_zero (S := S1x1x10000) origin3, View.ld_unit_zero (S := S10000x64) origin2,
    View.ld_unit_zero (S := S64x64) origin2, View.ld_unit_zero (S := S1x64) origin2,
    harg7.read_unread, harg8.read_unread, harg9.read_unread, View.ld_unit_zero (S := S64x1) origin2,
    View.readCov_unit_zero (S := S64x64) _ origin2, View.readCov_unit_zero (S := S64x1) _ origin2]
  rfl

end Cert.KernelIdeal.Acc

end
-- ==== Proof.Spec.lean ====
import Idealize.ShloMosaic.PureOps.Ideal
import Idealize.ShloMosaic.PureOps.Ideal.Laws
import Idealize.ShloMosaic.Lib.ValueIdx

/-!
# The centroid loss, as each program computes it

Rows `n < 100000` of `E` are points in 64 coordinates, `L n` is the label of point `n`, rows `j < 64` of `C` are
centroids. With `d2 n j` the squared distance of point `n` to centroid `j` clamped below by a small positive
constant, `D = √d2`, and `oh n k` the indicator of `L n = k`:

* the attraction of cluster `k` is `Σₙ oh n k · D n k ²` over `max (count k) 1`;
* its repulsion is `Σₙ oh n k · (Σⱼ (10 − D n j)² − (10 − D n k)²)` over `max (63 · count k) 1`;
* the loss is the sum of both over the clusters with a positive count, over the number of such clusters.

The two programs arrange this differently. One expands `|e − c|²` as `e·(−2c) + |e|²·1 + |c|²`, takes the root as
`d2 · d2^(−1/2)`, sums block by block (ten blocks of ten thousand points), and expands the squares
`Σ (10 − D)² = 100·K − 20·ΣD + ΣD²`. The other computes `|e|² + |c|² − 2 e·c`, a square root, and the squares directly.
`kres` and `rres` are the two arrangements; they share the last stage `fin`.
-/

noncomputable section

namespace Cert.Spec

open Idealize.ShloMosaic Idealize.ShloMosaic.ValueIdx
open scoped BigOperators

/-- The points' array, the labels' array, the centroids' array, a scalar. -/
abbrev SE : Shape := ⟨2, ![100000, 64]⟩
abbrev SL : Shape := ⟨1, ![100000]⟩
abbrev SC : Shape := ⟨2, ![64, 64]⟩
abbrev S0 : Shape := ⟨0, ![]⟩

/-- The extended real a 32-bit float word denotes. -/
abbrev lit (b : BitVec 32) : EReal := Ideal.ofBits .f32 b

/-- The clamp under the root (about 1e-12), and the other constants: −2, 2, 1, 10, 20, 63, 100, 6400. -/
abbrev eps : EReal := lit 0x2B8CBCCC#32
abbrev neg2 : EReal := lit 0xC0000000#32
abbrev two : EReal := lit 0x40000000#32
abbrev one : EReal := lit 0x3F800000#32
abbrev ten : EReal := lit 0x41200000#32
abbrev c20 : EReal := lit 0x41A00000#32
abbrev c63 : EReal := lit 0x427C0000#32
abbrev c100 : EReal := lit 0x42C80000#32
abbrev c6400 : EReal := lit 0x45C80000#32

variable (E : SE.Idx → EReal) (L : SL.Idx → BitVec 32) (C : SC.Idx → EReal)

/-- Point `b` of block `t`: blocks are ten thousand consecutive points. -/
def row (t : Fin 10) (b : Fin 10000) : Fin 100000 := ⟨t.val * 10000 + b.val, by omega⟩

/-- The indicator that point `n` carries label `k`. -/
def oh (n : Fin 100000) (k : Fin 64) : EReal := if L (ix1 n) = BitVec.ofNat 32 k.val then 1 else 0

/-- The indicator of the diagonal. -/
def eye (k j : Fin 64) : EReal := if k = j then 1 else 0

/-- `|c_j|²`. -/
def csq (j : Fin 64) : EReal := ∑ d : Fin 64, C (ix2 j d) * C (ix2 j d)

/-- `|e_n|²`. -/
def esq (n : Fin 100000) : EReal := ∑ d : Fin 64, E (ix2 n d) * E (ix2 n d)

/-- The clamped squared distance in the first arrangement: `e·(−2c) + (e∘e)·1 + |c|²`. -/
def kd2 (n : Fin 100000) (j : Fin 64) : EReal :=
  max (((∑ d : Fin 64, E (ix2 n d) * (neg2 * C (ix2 j d))) + (∑ d : Fin 64, (E (ix2 n d) * E (ix2 n d)) * one)) + csq C j) eps

/-- The clamped squared distance in the second arrangement: `(|e|² + |c|²) − 2·(e·c)`. -/
def rd2 (n : Fin 100000) (j : Fin 64) : EReal :=
  max ((esq E n + csq C j) - two * (∑ d : Fin 64, E (ix2 n d) * C (ix2 j d))) eps

/-- The distance in the second arrangement. -/
def rD (n : Fin 100000) (j : Fin 64) : EReal := Ideal.sqrt (rd2 E C n j)

/-- The squared hinge `max ((10 − D)², 0)`. -/
def hinge (n : Fin 100000) (j : Fin 64) : EReal := max ((ten - rD E C n j) * (ten - rD E C n j)) 0

/-- The number of points of cluster `k`, summed at once. -/
def cnt (k : Fin 64) : EReal := ∑ n : Fin 100000, oh L n k

/-- The same number, summed block by block. -/
def kcnt (k : Fin 64) : EReal := ∑ t : Fin 10, ∑ b : Fin 10000, oh L (row t b) k

/-- Block by block, the sum over cluster `k`'s points of the distance to centroid `j`, the root taken as `d2 · d2^(−1/2)`. -/
def km1 (k j : Fin 64) : EReal :=
  ∑ t : Fin 10, ∑ b : Fin 10000, oh L (row t b) k * (kd2 E C (row t b) j * Ideal.rsqrt (kd2 E C (row t b) j))

/-- Block by block, the sum over cluster `k`'s points of the squared distance to centroid `j`. -/
def km2 (k j : Fin 64) : EReal :=
  ∑ t : Fin 10, ∑ b : Fin 10000, oh L (row t b) k * kd2 E C (row t b) j

/-- The last stage, shared: from the per-cluster attraction sums `a`, repulsion sums `num` and counts `w` to the loss. -/
def fin (a num w : Fin 64 → EReal) : EReal :=
  Ideal.div
    ((∑ k : Fin 64, if 0 < w k then Ideal.div (a k) (max (w k) one) else 0)
      + (∑ k : Fin 64, if 0 < w k then Ideal.div (num k) (max (w k * c63) one) else 0))
    (∑ k : Fin 64, if 0 < w k then (1 : EReal) else 0)

/-- The first arrangement's attraction sums: the diagonal of `km2`, taken as a masked row sum. -/
def ka (k : Fin 64) : EReal := ∑ j : Fin 64, km2 E L C k j * eye k j

/-- The first arrangement's repulsion sums: `(6400·count − 20·Σⱼ km1 + Σⱼ km2) − (100·count − 20·km1 kk + km2 kk)`. -/
def knum (k : Fin 64) : EReal :=
  ((c6400 * kcnt L k - c20 * ∑ j : Fin 64, km1 E L C k j) + ∑ j : Fin 64, km2 E L C k j)
    - ((c100 * kcnt L k - c20 * ∑ j : Fin 64, km1 E L C k j * eye k j) + ∑ j : Fin 64, km2 E L C k j * eye k j)

/-- The second arrangement's attraction sums. -/
def ra (k : Fin 64) : EReal := ∑ n : Fin 100000, oh L n k * (rD E C n k * rD E C n k)

/-- The second arrangement's repulsion sums: all centroids' hinges of the cluster's points, less their own centroid's. -/
def rnum (k : Fin 64) : EReal :=
  (∑ n : Fin 100000, oh L n k * ∑ j : Fin 64, hinge E C n j) - (∑ n : Fin 100000, oh L n k * hinge E C n k)

/-- The loss in the first arrangement. -/
def kres : EReal := fin (ka E L C) (knum E L C) (kcnt L)

/-- The loss in the second arrangement. -/
def rres : EReal := fin (ra E L C) (rnum E L C) (cnt L)

end Cert.Spec

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.KBlocks.lean ====
import proofs.«123934_g74603581931673_cont_9to1_m_1323_19_alg».proof.Proof.Gen.KernelIdeal.Frame
import proofs.«123934_g74603581931673_cont_9to1_m_1323_19_alg».proof.Proof.Spec
import proofs.«123934_g74603581931673_cont_9to1_m_1323_19_alg».proof.Proof.LibRowRead
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

/-!
# The five input blocks of a grid point, entry by entry

Point `t` sees: the labels of points `10000·t … 10000·t + 9999` (the label vector recast to ten rows); the same
rows of the points' array; the whole matrix −2·centroidsᵀ; the whole matrix of ones; the whole row of squared
centroid norms. The last three are computed by the host lines before the call.
-/

noncomputable section

namespace Cert.KernelIdeal.Acc

open Idealize.ShloMosaic Idealize.ShloMosaic.TcCoe Idealize.ShloMosaic.ValueIdx Idealize.SL.Sem Cert.KernelIdeal Cert.KernelIdeal.Gen
open scoped BigOperators

section Blocks
variable {F : FTy → Type} [FloatOps F]
variable (m : (ℓ : Loc nD τ sig) → Buf (Elt F) ℓ) (c : Dev nD)

/-- The point's five input blocks, at their literal shapes. -/
abbrev blk0 (t : Fin cfg0.N) : Vec F S1x1x10000 .i32 := iblk m c 0 t
abbrev blk1 (t : Fin cfg0.N) : Vec F S10000x64 .f32 := iblk m c 1 t
abbrev blk2 (t : Fin cfg0.N) : Vec F S64x64 .f32 := iblk m c 2 t
abbrev blk3 (t : Fin cfg0.N) : Vec F S64x64 .f32 := iblk m c 3 t
abbrev blk4 (t : Fin cfg0.N) : Vec F S1x64 .f32 := iblk m c 4 t
end Blocks

variable (m : (ℓ : Loc nD τ sig) → Buf (Elt Ideal) ℓ) (c : Dev nD)

/-- The three argument arrays as the launch finds them. -/
abbrev argE : Cert.Spec.SE.Idx → EReal := m ((c.tc : Thread nD τ).loc main_arg0)
abbrev argL : Cert.Spec.SL.Idx → BitVec 32 := m ((c.tc : Thread nD τ).loc main_arg1)
abbrev argC : Cert.Spec.SC.Idx → EReal := m ((c.tc : Thread nD τ).loc main_arg2)

/-- A grid point as a block number. -/
def blockOf (t : Fin cfg0.N) : Fin 10 := ⟨t.val, lt_of_lt_of_eq t.isLt N_0⟩

/-! ## The arrays the host lines leave, as terms of the arguments -/

/-- The recast labels: the label vector read as ten rows of one by ten thousand. -/
theorem hostV0_eq : (V m c main_v0 : S10x1x10000.Idx → BitVec 32)
    = shapeCast S10x1x10000 (argL m c) shapeCasts_S100000_S10x1x10000 := by
  show StableHlo.after hostOps0 (fun b => m (c, b)) (Proc.devRef .tc main_v0) = _
  after_results
  rfl

/-- The scaled transpose: the constant −2 spread over the square, times the centroids transposed. -/
theorem hostV3_eq : (V m c main_v3 : S64x64.Idx → EReal)
    = mulf (broadcastInDim S64x64 ![] bcast_S_S64x64 (constant (F := Ideal) S_ .f32 0xC0000000#32))
        (transpose S64x64 [1, 0] (argC m c) transposes_S64x64_S64x64_1_0) := by
  show StableHlo.after hostOps0 (fun b => m (c, b)) (Proc.devRef .tc main_v3) = _
  after_results

/-- The square of ones: the constant 1 spread over the square. -/
theorem hostV4_eq : (V m c main_v4 : S64x64.Idx → EReal)
    = broadcastInDim S64x64 ![] bcast_S_S64x64 (constant (F := Ideal) S_ .f32 0x3F800000#32) := by
  show StableHlo.after hostOps0 (fun b => m (c, b)) (Proc.devRef .tc main_v4) = _
  after_results

/-- The squared norms: the centroids squared entry by entry, summed along each row from zero, laid out as one row. -/
theorem hostV7_eq : (V m c main_v7 : S1x64.Idx → EReal)
    = broadcastInDim S1x64 ![1] bcast_S64_S1x64_1
        (Host.reduceAdd (mulf (argC m c) (argC m c)) (constant (F := Ideal) S_ .f32 0x00000000#32) reducesTo_S64x64_S64_d1 h_S_) := by
  show StableHlo.after hostOps0 (fun b => m (c, b)) (Proc.devRef .tc main_v7) = _
  after_results

/-! ## Those terms at an entry -/

/-- Entry (q, ·, b) of the recast labels is label 10000·q + b: both sit at the same place in reading order. -/
theorem hostRecast_apply (L : S100000.Idx → BitVec 32) (q : Fin 10) (z : Fin 1) (b : Fin 10000) :
    shapeCast S10x1x10000 L shapeCasts_S100000_S10x1x10000 (ix3 q z b) = L (ix1 (Cert.Spec.row q b)) := by
  refine shapeCast_apply L _ _ (ix1 (Cert.Spec.row q b)) ?_
  rw [Shape.rowMajor_val_one, Shape.rowMajor_val_three]
  show q.val * 10000 + b.val = (q.val * 1 + z.val) * 10000 + b.val
  have := z.isLt; omega

/-- Entry (d, j) of −2·Cᵀ is −2 times entry (j, d) of C. -/
theorem hostNeg2T_apply (C : S64x64.Idx → EReal) (d j : Fin 64) :
    mulf (broadcastInDim S64x64 ![] bcast_S_S64x64 (constant (F := Ideal) S_ .f32 0xC0000000#32))
        (transpose S64x64 [1, 0] C transposes_S64x64_S64x64_1_0) (ix2 d j)
      = Cert.Spec.neg2 * C (ix2 j d) := by
  rw [mulf_apply]
  refine congrArg₂ (· * ·) ?_ ?_
  · exact (broadcastInDim_apply _ bcast_S_S64x64 _ _ ix0 (fun a => a.elim0)).trans (constant_apply _ _)
  · refine transpose_apply _ C _ _ (ix2 j d) fun b => ?_
    match b with
    | ⟨0, _⟩ => rfl
    | ⟨1, _⟩ => rfl

/-- Every entry of the square of ones is 1. -/
theorem hostOnes_apply (i : S64x64.Idx) :
    broadcastInDim S64x64 ![] bcast_S_S64x64 (constant (F := Ideal) S_ .f32 0x3F800000#32) i = Cert.Spec.one :=
  (broadcastInDim_apply _ bcast_S_S64x64 _ i ix0 (fun a => a.elim0)).trans (constant_apply _ _)

/-- Entry (·, j) of the row of squared norms is Σ_d C(j,d)²: zero plus the sum along row j. -/
theorem hostCsqRow_apply (C : S64x64.Idx → EReal) (z : Fin 1) (j : Fin 64) :
    broadcastInDim S1x64 ![1] bcast_S64_S1x64_1
        (Host.reduceAdd (mulf C C) (constant (F := Ideal) S_ .f32 0x00000000#32) reducesTo_S64x64_S64_d1 h_S_) (ix2 z j)
      = Cert.Spec.csq C j := by
  refine (broadcastInDim_apply _ bcast_S64_S1x64_1 _ _ (ix1 j) fun a => ?_).trans ?_
  · match a with
    | ⟨0, _⟩ => rfl
  · rw [Cert.LibRowRead.hostReduceAdd_row (mulf C C) _ reducesTo_S64x64_S64_d1 reduces_S64x64_S64 h_S_ j,
      constant_apply, Ideal.ofBits_zero_f32, zero_add]
    rfl

/-! ## Where each block sits in its array

A block's coordinate on an axis is the block number there times the block's extent, plus the coordinate inside the
block. The block numbers are read off the ten grid points once. -/

/-- The label block of point t is row t of the ten; no offset on the other two axes. -/
theorem blkIdx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- The points block of point t is the t-th band of ten thousand rows, all columns. -/
theorem blkIdx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The other three blocks are their whole arrays at every point. -/
theorem blkIdx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem blkIdx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Entry (·, z, b) of point t's label block is entry (t, z, b) of the recast labels. -/
theorem blkEmb0 (t : Fin cfg0.N) (z z' : Fin 1) (b : Fin 10000) :
    ((cfg0.win 0).blk t).view.emb (ix3 z z' b) = (ix3 (blockOf t) z' b : S10x1x10000.Idx) := by
  obtain ⟨e0, e1, e2⟩ := blkIdx0 t
  funext a; apply Fin.ext
  match a with
  | ⟨0, _⟩ => show win0_0.index t (0 : Fin 3) * 1 + 1 * z.val = t.val; have := z.isLt; omega
  | ⟨1, _⟩ => show win0_0.index t (1 : Fin 3) * 1 + 1 * z'.val = z'.val; omega
  | ⟨2, _⟩ => show win0_0.index t (2 : Fin 3) * 10000 + 1 * b.val = b.val; omega

/-- Entry (b, d) of point t's points block is entry (10000·t + b, d) of the points. -/
theorem blkEmb1 (t : Fin cfg0.N) (b : Fin 10000) (d : Fin 64) :
    ((cfg0.win 1).blk t).view.emb (ix2 b d) = (ix2 (Cert.Spec.row (blockOf t) b) d : S100000x64.Idx) := by
  obtain ⟨e0, e1⟩ := blkIdx1 t
  funext a; apply Fin.ext
  match a with
  | ⟨0, _⟩ => show win0_1.index t (0 : Fin 2) * 10000 + 1 * b.val = t.val * 10000 + b.val; omega
  | ⟨1, _⟩ => show win0_1.index t (1 : Fin 2) * 64 + 1 * d.val = d.val; omega

/-- A whole-array block's entry is the array's entry at the same place. -/
theorem blkEmb2 (t : Fin cfg0.N) (d j : Fin 64) : ((cfg0.win 2).blk t).view.emb (ix2 d j) = (ix2 d j : S64x64.Idx) := by
  obtain ⟨e0, e1⟩ := blkIdx2 t
  funext a; apply Fin.ext
  match a with
  | ⟨0, _⟩ => show win0_2.index t (0 : Fin 2) * 64 + 1 * d.val = d.val; omega
  | ⟨1, _⟩ => show win0_2.index t (1 : Fin 2) * 64 + 1 * j.val = j.val; omega
theorem blkEmb4 (t : Fin cfg0.N) (z : Fin 1) (j : Fin 64) : ((cfg0.win 4).blk t).view.emb (ix2 z j) = (ix2 z j : S1x64.Idx) := by
  obtain ⟨e0, e1⟩ := blkIdx4 t
  funext a; apply Fin.ext
  match a with
  | ⟨0, _⟩ => show win0_4.index t (0 : Fin 2) * 1 + 1 * z.val = z.val; omega
  | ⟨1, _⟩ => show win0_4.index t (1 : Fin 2) * 64 + 1 * j.val = j.val; omega

/-! ## The five blocks -/

theorem blk0_apply (t : Fin cfg0.N) (b : Fin 10000) :
    blk0 m c t (ix3 (0 : Fin 1) (0 : Fin 1) b) = argL m c (ix1 (Cert.Spec.row (blockOf t) b)) := by
  show V m c main_v0 (((cfg0.win 0).blk t).view.emb (ix3 (0 : Fin 1) (0 : Fin 1) b)) = _
  rw [blkEmb0, hostV0_eq]
  exact hostRecast_apply _ _ _ b

theorem blk1_apply (t : Fin cfg0.N) (b : Fin 10000) (d : Fin 64) :
    blk1 m c t (ix2 b d) = argE m c (ix2 (Cert.Spec.row (blockOf t) b) d) := by
  show V m c main_arg0 (((cfg0.win 1).blk t).view.emb (ix2 b d)) = _
  rw [blkEmb1, V_main_arg0]

theorem blk2_apply (t : Fin cfg0.N) (d j : Fin 64) :
    blk2 m c t (ix2 d j) = Cert.Spec.neg2 * argC m c (ix2 j d) := by
  show V m c main_v3 (((cfg0.win 2).blk t).view.emb (ix2 d j)) = _
  rw [blkEmb2, hostV3_eq]
  exact hostNeg2T_apply _ d j

theorem blk3_apply (t : Fin cfg0.N) (d j : Fin 64) :
    blk3 m c t (ix2 d j) = Cert.Spec.one := by
  show V m c main_v4 (((cfg0.win 3).blk t).view.emb (ix2 d j)) = _
  rw [hostV4_eq]
  exact hostOnes_apply _

theorem blk4_apply (t : Fin cfg0.N) (j : Fin 64) :
    blk4 m c t (ix2 (0 : Fin 1) j) = Cert.Spec.csq (argC m c) j := by
  show V m c main_v7 (((cfg0.win 4).blk t).view.emb (ix2 (0 : Fin 1) j)) = _
  rw [blkEmb4, hostV7_eq]
  exact hostCsqRow_apply _ 0 j

end Cert.KernelIdeal.Acc

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KPayStep.lean ====
import proofs.«123934_g74603581931673_cont_9to1_m_1323_19_alg».proof.Proof.KSteps
import proofs.«123934_g74603581931673_cont_9to1_m_1323_19_alg».proof.Proof.Spec
import proofs.«123934_g74603581931673_cont_9to1_m_1323_19_alg».proof.Proof.LibDot
import proofs.«123934_g74603581931673_cont_9to1_m_1323_19_alg».proof.Proof.LibKeepdims
import Idealize.ShloMosaic.PureOps.Ideal.Laws
import Idealize.ShloMosaic.Lib.ValueIdx
import Idealize.ShloMosaic.Lib.ValueLayout
import Idealize.ShloMosaic.Lib.Pipeline.Value

/-!
# One point's contribution, entry by entry

For one block of ten thousand points (`x1`, with labels `x0`), the matrix `x2` of −2·centroidsᵀ, the matrix `x3` of
ones and the row `x4` of squared centroid norms: the block's clamped squared distances `bd2`, its one-hot `boh`
(clusters along rows, points along columns), and the three steps read at an entry — each is what was there plus a sum
over the block's points.
-/

noncomputable section

namespace Cert.KernelIdeal.Acc

open Idealize.ShloMosaic Idealize.ShloMosaic.ValueIdx Idealize.SL.Sem Cert.KernelIdeal Cert.KernelIdeal.Gen
open scoped BigOperators

variable (x0 : Vec Ideal S1x1x10000 .i32) (x1 : Vec Ideal S10000x64 .f32) (x2 x3 : Vec Ideal S64x64 .f32) (x4 : Vec Ideal S1x64 .f32)

/-- The block's indicator that its point `b` carries label `k`. -/
def boh (k : Fin 64) (b : Fin 10000) : EReal :=
  if x0 (ix3 (0 : Fin 1) (0 : Fin 1) b) = BitVec.ofNat 32 k.val then 1 else 0

/-- The block's clamped squared distance of its point `b` to centroid `j`: `x1·x2 + (x1∘x1)·x3 + x4`, clamped below. -/
def bd2 (b : Fin 10000) (j : Fin 64) : EReal :=
  max (((∑ d : Fin 64, x1 (ix2 b d) * x2 (ix2 d j)) + (∑ d : Fin 64, (x1 (ix2 b d) * x1 (ix2 b d)) * x3 (ix2 d j)))
    + x4 (ix2 (0 : Fin 1) j)) Cert.Spec.eps

/-- An equality test of two 32-bit words, widened to 32 bits and read as a signed integer, is the indicator of the
    equality: the one-bit answer is 1 or 0, and widening and the signed reading keep it. -/
theorem sitofp_eqbit (x y : BitVec 32) :
    (FloatOps.sitofp (F := Ideal) .f32 ((IntOp.cmpi .eq x y).setWidth 32) : EReal) = if x = y then 1 else 0 := by
  by_cases h : x = y
  · subst h
    rw [if_pos rfl]
    have e : (IntOp.cmpi .eq x x).setWidth 32 = 1#32 := by
      show (BitVec.ofBool (x == x)).setWidth 32 = 1#32
      rw [beq_self_eq_true]; rfl
    rw [e]
    show (((1#32).toInt : ℝ) : EReal) = 1
    have e' : (1#32).toInt = 1 := by decide
    rw [e']; simp
  · rw [if_neg h]
    have hb : (x == y) = false := beq_eq_false_iff_ne.mpr h
    have e : (IntOp.cmpi .eq x y).setWidth 32 = 0#32 := by
      show (BitVec.ofBool (x == y)).setWidth 32 = 0#32
      rw [hb]; rfl
    rw [e]
    show (((0#32).toInt : ℝ) : EReal) = 0
    simp

/-- The clamped squared distances of the block, at (point b, centroid j): the two products are sums over the 64
    coordinates, the row of centroid norms is repeated down the points, and the clamp is entrywise. -/
theorem pay14_apply (b : Fin 10000) (j : Fin 64) :
    k0_pay14 x1 x4 x2 x3 (ix2 b j) = bd2 x1 x2 x3 x4 b j := by
  unfold k0_pay14 bd2
  simp only [shapeCast_self]
  rw [maximumf_apply, addf_apply, addf_apply, broadcast_apply]
  have h1 := Cert.LibDot.matmul_zero_at (φ₁ := .f32) (φ₂ := .f32) dot_S10000x64_S64x64_S10000x64_1_0_0_1_n_n
    rfl rfl rfl rfl rfl rfl none x1 x2 b j
  have h2 := Cert.LibDot.matmul_zero_at (φ₁ := .f32) (φ₂ := .f32) dot_S10000x64_S64x64_S10000x64_1_0_0_1_n_n
    rfl rfl rfl rfl rfl rfl none (mulf x1 x1) x3 b j
  have hb : broadcastTo S10000x64 x4 broadcasts_S1x64_S10000x64 (ix2 b j) = x4 (ix2 (0 : Fin 1) j) := by
    refine broadcastTo_apply x4 broadcasts_S1x64_S10000x64 (ix2 b j) (ix2 (0 : Fin 1) j) fun ax => ?_
    match ax with
    | ⟨0, _⟩ => rfl
    | ⟨1, _⟩ => rfl
  exact congrArg₂ max (congrArg₂ (· + ·) (congrArg₂ (· + ·) h1 h2) hb) rfl

/-- The block's one-hot at (cluster k, point b): the labels' row repeated down the clusters meets the clusters'
    column of row numbers repeated along the points, and the comparison's answer is read as 1 or 0. -/
theorem pay15_apply (k : Fin 64) (b : Fin 10000) : k0_pay15 (F := Ideal) x0 (ix2 k b) = boh x0 k b := by
  unfold k0_pay15 boh
  have hA : broadcastTo S64x10000 (shapeCast S1x10000 x0 shapeCasts_S1x1x10000_S1x10000) broadcasts_S1x10000_S64x10000 (ix2 k b)
      = x0 (ix3 (0 : Fin 1) (0 : Fin 1) b) := by
    refine (broadcastTo_apply _ broadcasts_S1x10000_S64x10000 (ix2 k b) (ix2 (0 : Fin 1) b) fun ax => ?_).trans ?_
    · match ax with
      | ⟨0, _⟩ => rfl
      | ⟨1, _⟩ => rfl
    · refine shapeCast_apply x0 shapeCasts_S1x1x10000_S1x10000 (ix2 (0 : Fin 1) b) (ix3 (0 : Fin 1) (0 : Fin 1) b) ?_
      rw [Shape.rowMajor_val_three, Shape.rowMajor_val_two]
      rfl
  have hB : broadcastTo S64x10000 (iota .tc S64x1 32 [0] iota_S64x1_d0_w32) broadcasts_S64x1_S64x10000 (ix2 k b)
      = BitVec.ofNat 32 k.val := by
    refine (broadcastTo_a1_ab_apply _ broadcasts_S64x1_S64x10000 k b).trans ?_
    exact iota_single_apply .tc S64x1 32 0 iota_S64x1_d0_w32 (ix2 k (0 : Fin 1))
  rw [sitofp_apply, extui_apply]
  show FloatOps.sitofp (F := Ideal) .f32 ((IntOp.cmpi .eq _ _).setWidth 32) = _
  rw [hA, hB]
  exact sitofp_eqbit _ _

/-- The distance sums after a point, at (k, j). -/
theorem step0_apply (p0 : Vec Ideal S64x64 .f32) (k j : Fin 64) :
    step0 x0 x1 x2 x3 x4 p0 (ix2 k j)
      = p0 (ix2 k j) + ∑ b : Fin 10000, boh x0 k b * (bd2 x1 x2 x3 x4 b j * Ideal.rsqrt (bd2 x1 x2 x3 x4 b j)) := by
  unfold step0 k0_pay16
  simp only [shapeCast_self]
  rw [addf_apply]
  have h := Cert.LibDot.matmul_zero_at (φ₁ := .f32) (φ₂ := .f32) dot_S64x10000_S10000x64_S64x64_1_0_0_1_n_n
    rfl rfl rfl rfl rfl rfl none (k0_pay15 x0) (mulf (k0_pay14 x1 x4 x2 x3) (rsqrt (k0_pay14 x1 x4 x2 x3))) k j
  refine congrArg (p0 (ix2 k j) + ·) (h.trans ?_)
  refine Finset.sum_congr rfl fun b _ => ?_
  rw [pay15_apply, mulf_apply]
  show boh x0 k b * (k0_pay14 x1 x4 x2 x3 (ix2 b j) * Ideal.rsqrt (k0_pay14 x1 x4 x2 x3 (ix2 b j))) = _
  rw [pay14_apply]

/-- The squared-distance sums after a point, at (k, j). -/
theorem step1_apply (p1 : Vec Ideal S64x64 .f32) (k j : Fin 64) :
    step1 x0 x1 x2 x3 x4 p1 (ix2 k j) = p1 (ix2 k j) + ∑ b : Fin 10000, boh x0 k b * bd2 x1 x2 x3 x4 b j := by
  unfold step1 k0_pay1
  simp only [shapeCast_self]
  rw [addf_apply]
  have h := Cert.LibDot.matmul_zero_at (φ₁ := .f32) (φ₂ := .f32) dot_S64x10000_S10000x64_S64x64_1_0_0_1_n_n
    rfl rfl rfl rfl rfl rfl none (k0_pay15 x0) (k0_pay14 x1 x4 x2 x3) k j
  refine congrArg (p1 (ix2 k j) + ·) (h.trans ?_)
  refine Finset.sum_congr rfl fun b _ => ?_
  rw [pay15_apply, pay14_apply]

/-- The counts after a point, at cluster k. -/
theorem step2_apply (p2 : Vec Ideal S64x1 .f32) (k : Fin 64) :
    step2 x0 p2 (ix2 k (0 : Fin 1)) = p2 (ix2 k (0 : Fin 1)) + ∑ b : Fin 10000, boh x0 k b := by
  unfold step2 k0_pay2
  simp only [shapeCast_self]
  rw [addf_apply]
  refine congrArg (p2 (ix2 k (0 : Fin 1)) + ·) ?_
  refine (shapeCast_a_a1_apply _ shapeCasts_S64_S64x1 k (0 : Fin 1)).trans ?_
  refine (multiReduction_add_rows_apply (k0_pay15 x0) _ reduces_S64x10000_S64 (.inl rfl) rfl k).trans ?_
  exact Finset.sum_congr rfl fun b _ => pay15_apply x0 k b

/-- The cleared accumulators hold zero everywhere. -/
theorem pay11_apply (k j : Fin 64) : (k0_pay11 (F := Ideal)) (ix2 k j) = 0 := by
  unfold k0_pay11
  simp only [shapeCast_self]
  rw [broadcast_apply]
  exact Ideal.ofBits_zero_f32

theorem pay12_apply (k j : Fin 64) : (k0_pay12 (F := Ideal)) (ix2 k j) = 0 := by
  unfold k0_pay12
  simp only [shapeCast_self]
  rw [broadcast_apply]
  exact Ideal.ofBits_zero_f32

theorem pay13_apply (k : Fin 64) : (k0_pay13 (F := Ideal)) (ix2 k (0 : Fin 1)) = 0 := by
  unfold k0_pay13
  simp only [shapeCast_self]
  rw [broadcast_apply]
  exact Ideal.ofBits_zero_f32

end Cert.KernelIdeal.Acc

end
-- ==== Proof.KPayFinish.lean ====
import proofs.«123934_g74603581931673_cont_9to1_m_1323_19_alg».proof.Proof.KSteps
import proofs.«123934_g74603581931673_cont_9to1_m_1323_19_alg».proof.Proof.Spec
import proofs.«123934_g74603581931673_cont_9to1_m_1323_19_alg».proof.Proof.LibKeepdims
import Idealize.ShloMosaic.PureOps.Ideal.Laws
import Idealize.ShloMosaic.Lib.ValueIdx
import Idealize.ShloMosaic.Lib.ValueLayout
import Idealize.ShloMosaic.Lib.Pipeline.Value

/-!
# The last point's fold, as the shared last stage

From the three accumulators the last point takes row sums and masked (diagonal) row sums, forms per cluster the
attraction sum and the expanded repulsion sum, divides by the clamped counts, keeps the clusters with a positive
count and divides by their number: exactly `Cert.Spec.fin` of those per-cluster quantities.
-/

noncomputable section

namespace Cert.KernelIdeal.Acc

open Idealize.ShloMosaic Idealize.ShloMosaic.ValueIdx Idealize.SL.Sem Cert.KernelIdeal Cert.KernelIdeal.Gen
open scoped BigOperators

/-- Two naturals below 64 with the same 32-bit word are equal. -/
theorem ofNat32_inj (k j : Fin 64) : BitVec.ofNat 32 k.val = BitVec.ofNat 32 j.val ↔ k = j := by
  constructor
  · intro h
    have h2 := congrArg BitVec.toNat h
    simp only [BitVec.toNat_ofNat] at h2
    apply Fin.ext
    have hk := k.isLt
    have hj := j.isLt
    omega
  · rintro rfl; rfl

/-- The row counter compared with the column counter, widened and converted to a number, is the indicator of the
    diagonal. -/
theorem pay4_apply (k j : Fin 64) : k0_pay4 (F := Ideal) (ix2 k j) = Cert.Spec.eye k j := by
  unfold k0_pay4 Cert.Spec.eye
  dsimp only
  rw [sitofp_apply, extui_apply]
  show (((BitVec.setWidth 32 (IntOp.cmpi .eq (iota Kind.tc S64x64 32 [0] _ (ix2 k j)) (iota Kind.tc S64x64 32 [1] _ (ix2 k j)))).toInt : ℝ) : EReal) = _
  rw [iota_single_apply, iota_single_apply]
  show (((BitVec.setWidth 32 (BitVec.ofBool (BitVec.ofNat 32 k.val == BitVec.ofNat 32 j.val))).toInt : ℝ) : EReal) = _
  by_cases h : k = j
  · subst h
    simp
  · have hne : ¬ BitVec.ofNat 32 k.val = BitVec.ofNat 32 j.val := fun e => h ((ofNat32_inj k j).mp e)
    rw [if_neg h]
    have hb : (BitVec.ofNat 32 k.val == BitVec.ofNat 32 j.val) = false := by simpa using hne
    rw [hb]
    simp

/-- The counts' column read as a vector: entry `k` is the column's entry of row `k`. -/
theorem pay5_apply (s2 : Vec Ideal S64x1 .f32) (k : Fin 64) : k0_pay5 s2 (ix1 k) = s2 (ix2 k (0 : Fin 1)) := by
  unfold k0_pay5
  refine shapeCast_apply s2 _ _ _ ?_
  rw [Shape.rowMajor_val_two, Shape.rowMajor_val_one]
  show k.val * 1 + 0 = k.val
  omega

/-- The masked row sum: row `k` of the array against row `k` of the diagonal's indicator. -/
theorem pay6_apply (s1 : Vec Ideal S64x64 .f32) (k : Fin 64) :
    k0_pay6 s1 (ix1 k) = ∑ j : Fin 64, s1 (ix2 k j) * Cert.Spec.eye k j := by
  unfold k0_pay6
  refine (multiReduction_add_rows_apply _ _ _ _ _ k).trans ?_
  exact Finset.sum_congr rfl fun j _ => by rw [mulf_apply, pay4_apply]

/-- The attraction quotient of cluster `k`: its masked row sum over its count clamped below by one. -/
theorem pay7_apply (s1 : Vec Ideal S64x64 .f32) (s2 : Vec Ideal S64x1 .f32) (k : Fin 64) :
    k0_pay7 s1 s2 (ix1 k)
      = Ideal.div (∑ j : Fin 64, s1 (ix2 k j) * Cert.Spec.eye k j) (max (s2 (ix2 k (0 : Fin 1))) Cert.Spec.one) := by
  unfold k0_pay7
  rw [divf_apply, maximumf_apply, broadcast_apply, pay6_apply, pay5_apply]
  rfl

/-- The repulsion quotient of cluster `k`: the expanded sum over all centroids less the own centroid's share, over
    sixty-three times the count clamped below by one. -/
theorem pay8_apply (s0 s1 : Vec Ideal S64x64 .f32) (s2 : Vec Ideal S64x1 .f32) (k : Fin 64) :
    k0_pay8 s0 s1 s2 (ix1 k)
      = Ideal.div
          (((Cert.Spec.c6400 * s2 (ix2 k (0 : Fin 1)) - Cert.Spec.c20 * ∑ j : Fin 64, s0 (ix2 k j)) + ∑ j : Fin 64, s1 (ix2 k j))
            - ((Cert.Spec.c100 * s2 (ix2 k (0 : Fin 1)) - Cert.Spec.c20 * ∑ j : Fin 64, s0 (ix2 k j) * Cert.Spec.eye k j)
                + ∑ j : Fin 64, s1 (ix2 k j) * Cert.Spec.eye k j))
          (max (s2 (ix2 k (0 : Fin 1)) * Cert.Spec.c63) Cert.Spec.one) := by
  unfold k0_pay8
  simp only [divf_apply, subf_apply, addf_apply, mulf_apply, maximumf_apply, broadcast_apply, pay5_apply, pay6_apply]
  erw [multiReduction_add_rows_apply (src := s0), multiReduction_add_rows_apply (src := s1),
    multiReduction_add_rows_apply (src := mulf s0 k0_pay4)]
  simp only [mulf_apply, pay4_apply]
  rfl

/-- The bit of cluster `k`: whether its count is positive. -/
theorem pay9_apply (s2 : Vec Ideal S64x1 .f32) (k : Fin 64) :
    k0_pay9 s2 (ix1 k) = BitVec.ofBool (decide (0 < s2 (ix2 k (0 : Fin 1)))) := by
  unfold k0_pay9
  rw [cmpf_apply, broadcast_apply, pay5_apply]
  show Ideal.cmp .ogt (s2 (ix2 k (0 : Fin 1))) (Ideal.ofBits .f32 0x00000000#32) = _
  rw [Ideal.ofBits_zero_f32]
  rfl

/-- That bit as a number, laid out as a row: one where the count is positive, zero elsewhere. -/
theorem pay10_apply (s2 : Vec Ideal S64x1 .f32) (k : Fin 64) :
    k0_pay10 s2 (ix2 (0 : Fin 1) k) = if 0 < s2 (ix2 k (0 : Fin 1)) then (1 : EReal) else 0 := by
  unfold k0_pay10
  rw [shapeCast_a_1a_apply, sitofp_apply, extui_apply, pay9_apply]
  show (((BitVec.setWidth 32 (BitVec.ofBool (decide (0 < s2 (ix2 k (0 : Fin 1)))))).toInt : ℝ) : EReal) = _
  by_cases h : 0 < s2 (ix2 k (0 : Fin 1))
  · simp [h]
  · simp [h]

/-- Choosing by the bit of a decided proposition between a value and the zero word's value is the conditional. -/
theorem select_ofBool_zero (c : Prop) [Decidable c] (a : EReal) :
    Scalar.select (BitVec.ofBool (decide c)) a (FloatOps.ofBits (F := Ideal) FTy.f32 0x00000000#32) = if c then a else 0 := by
  rw [Ideal.ofBits_def, Ideal.ofBits_zero_f32]
  by_cases h : c <;> simp [h, Scalar.select]

/-- The stored loss, from the accumulators' entries. -/
theorem finish_apply (s0 s1 : Vec Ideal S64x64 .f32) (s2 : Vec Ideal S64x1 .f32) :
    finish s0 s1 s2 (ix2 (0 : Fin 1) (0 : Fin 1))
      = Cert.Spec.fin
          (fun k => ∑ j : Fin 64, s1 (ix2 k j) * Cert.Spec.eye k j)
          (fun k => ((Cert.Spec.c6400 * s2 (ix2 k (0 : Fin 1)) - Cert.Spec.c20 * ∑ j : Fin 64, s0 (ix2 k j)) + ∑ j : Fin 64, s1 (ix2 k j))
            - ((Cert.Spec.c100 * s2 (ix2 k (0 : Fin 1)) - Cert.Spec.c20 * ∑ j : Fin 64, s0 (ix2 k j) * Cert.Spec.eye k j)
                + ∑ j : Fin 64, s1 (ix2 k j) * Cert.Spec.eye k j))
          (fun k => s2 (ix2 k (0 : Fin 1))) := by
  unfold finish k0_pay3
  rw [broadcast_apply]
  simp only [Ideal.scalar_divf_def, Ideal.scalar_addf_def, extractAt_11, shapeCast_a_a1_apply]
  erw [multiReduction_add_rows_apply (src := k0_pay10 s2)]
  erw [multiReduction_add_rows_apply, multiReduction_add_rows_apply]
  simp only [shapeCast_a_1a_apply, select_apply, pay9_apply, pay7_apply, pay8_apply, pay10_apply, broadcast_apply]
  simp only [select_ofBool_zero]
  rfl

end Cert.KernelIdeal.Acc

end
-- ==== Proof.KAccum.lean ====
import proofs.«123934_g74603581931673_cont_9to1_m_1323_19_alg».proof.Proof.KPieces
import proofs.«123934_g74603581931673_cont_9to1_m_1323_19_alg».proof.Proof.KBlocks
import proofs.«123934_g74603581931673_cont_9to1_m_1323_19_alg».proof.Proof.KPayStep
import proofs.«123934_g74603581931673_cont_9to1_m_1323_19_alg».proof.Proof.KPayFinish

/-!
# The accumulators point by point

At the first grid point each accumulator is one step from the cleared array; at every later point it is one step
from what the point before left; at the last point the stored loss is `finish` of the three updated accumulators.
-/

set_option maxRecDepth 16384

noncomputable section

namespace Cert.KernelIdeal.Acc

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (c : Dev nD)

/-- The accumulators after the first point. -/
theorem outs_first (t : Fin cfg0.N) (h0 : t.val % 10 = 0) (h1 : ¬t.val % 10 = 9) :
    (outsAt0 m c t.val t.isLt).2
      = (step0 (blk0 m c t) (blk1 m c t) (blk2 m c t) (blk3 m c t) (blk4 m c t) (k0_pay11 (F := F)), step1 (blk0 m c t) (blk1 m c t) (blk2 m c t) (blk3 m c t) (blk4 m c t) (k0_pay12 (F := F)), step2 (blk0 m c t) (k0_pay13 (F := F))) := by
  rw [outsAt0_A m c t h0 h1]
  dsimp only
  exact congrArg₂ Prod.mk
    (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) ((hcond0_0 t).mpr h0) (fun h => h1 ((hcond0_1 t).mp h)))
    (congrArg₂ Prod.mk
      (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) ((hcond0_0 t).mpr h0) (fun h => h1 ((hcond0_1 t).mp h)))
      (sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) ((hcond0_0 t).mpr h0) (fun h => h1 ((hcond0_1 t).mp h))))

/-- The accumulators after a middle point, over what the point before left. -/
theorem outs_middle (t : Fin cfg0.N) (h0 : ¬t.val % 10 = 0) (h1 : ¬t.val % 10 = 9) :
    (outsAt0 m c t.val t.isLt).2
      = (step0 (blk0 m c t) (blk1 m c t) (blk2 m c t) (blk3 m c t) (blk4 m c t) (outsAt0 m c (t.val - 1) (Nat.lt_of_le_of_lt (Nat.sub_le _ _) t.isLt)).2.1, step1 (blk0 m c t) (blk1 m c t) (blk2 m c t) (blk3 m c t) (blk4 m c t) (outsAt0 m c (t.val - 1) (Nat.lt_of_le_of_lt (Nat.sub_le _ _) t.isLt)).2.2.1, step2 (blk0 m c t) (outsAt0 m c (t.val - 1) (Nat.lt_of_le_of_lt (Nat.sub_le _ _) t.isLt)).2.2.2) := by
  rw [outsAt0_B m c t h0 h1]
  dsimp only
  exact congrArg₂ Prod.mk
    (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)))
    (congrArg₂ Prod.mk
      (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)))
      (sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))))

/-- The accumulators after the last point, over what the point before left. -/
theorem outs_last (t : Fin cfg0.N) (h0 : ¬t.val % 10 = 0) (h1 : t.val % 10 = 9) :
    (outsAt0 m c t.val t.isLt).2
      = (step0 (blk0 m c t) (blk1 m c t) (blk2 m c t) (blk3 m c t) (blk4 m c t) (outsAt0 m c (t.val - 1) (Nat.lt_of_le_of_lt (Nat.sub_le _ _) t.isLt)).2.1, step1 (blk0 m c t) (blk1 m c t) (blk2 m c t) (blk3 m c t) (blk4 m c t) (outsAt0 m c (t.val - 1) (Nat.lt_of_le_of_lt (Nat.sub_le _ _) t.isLt)).2.2.1, step2 (blk0 m c t) (outsAt0 m c (t.val - 1) (Nat.lt_of_le_of_lt (Nat.sub_le _ _) t.isLt)).2.2.2) := by
  rw [outsAt0_C m c t h0 h1]
  dsimp only
  exact congrArg₂ Prod.mk
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1))
    (congrArg₂ Prod.mk
      (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1))
      (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)))

/-- The loss the last point stores. -/
theorem out_last (t : Fin cfg0.N) (h0 : ¬t.val % 10 = 0) (h1 : t.val % 10 = 9) :
    (outsAt0 m c t.val t.isLt).1
      = finish (step0 (blk0 m c t) (blk1 m c t) (blk2 m c t) (blk3 m c t) (blk4 m c t) (outsAt0 m c (t.val - 1) (Nat.lt_of_le_of_lt (Nat.sub_le _ _) t.isLt)).2.1) (step1 (blk0 m c t) (blk1 m c t) (blk2 m c t) (blk3 m c t) (blk4 m c t) (outsAt0 m c (t.val - 1) (Nat.lt_of_le_of_lt (Nat.sub_le _ _) t.isLt)).2.2.1) (step2 (blk0 m c t) (outsAt0 m c (t.val - 1) (Nat.lt_of_le_of_lt (Nat.sub_le _ _) t.isLt)).2.2.2) := by
  rw [outsAt0_C m c t h0 h1]
  dsimp only
  exact out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (blk0 m c t) (blk1 m c t) (blk2 m c t) (blk3 m c t) (blk4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

end Cert.KernelIdeal.Acc

/-! ## The accumulators as sums over blocks -/

namespace Cert.KernelIdeal.Acc

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (c : Dev nD)

/-- The step after a later point, with the point before named by its number. -/
theorem outs_succ (n : ℕ) (hn : n + 1 < cfg0.N) :
    (outsAt0 m c (n + 1) hn).2
      = (step0 (blk0 m c ⟨n + 1, hn⟩) (blk1 m c ⟨n + 1, hn⟩) (blk2 m c ⟨n + 1, hn⟩) (blk3 m c ⟨n + 1, hn⟩) (blk4 m c ⟨n + 1, hn⟩) (outsAt0 m c n (Nat.lt_of_succ_lt hn)).2.1,
         step1 (blk0 m c ⟨n + 1, hn⟩) (blk1 m c ⟨n + 1, hn⟩) (blk2 m c ⟨n + 1, hn⟩) (blk3 m c ⟨n + 1, hn⟩) (blk4 m c ⟨n + 1, hn⟩) (outsAt0 m c n (Nat.lt_of_succ_lt hn)).2.2.1,
         step2 (blk0 m c ⟨n + 1, hn⟩) (outsAt0 m c n (Nat.lt_of_succ_lt hn)).2.2.2) := by
  have hN : cfg0.N = 10 := N_0
  have h0 : ¬(⟨n + 1, hn⟩ : Fin cfg0.N).val % 10 = 0 := by show ¬(n + 1) % 10 = 0; omega
  by_cases h1 : (⟨n + 1, hn⟩ : Fin cfg0.N).val % 10 = 9
  · exact outs_last m c ⟨n + 1, hn⟩ h0 h1
  · exact outs_middle m c ⟨n + 1, hn⟩ h0 h1

/-- A block's one-hot is the labels' indicator on that block's points. -/
theorem boh_blk (t : Fin cfg0.N) (k : Fin 64) (b : Fin 10000) :
    boh (blk0 m c t) k b = Cert.Spec.oh (argL m c) (Cert.Spec.row (blockOf t) b) k := by
  unfold boh Cert.Spec.oh
  rw [blk0_apply]

/-- A block's clamped squared distances are the first arrangement's, on that block's points. -/
theorem bd2_blk (t : Fin cfg0.N) (b : Fin 10000) (j : Fin 64) :
    bd2 (blk1 m c t) (blk2 m c t) (blk3 m c t) (blk4 m c t) b j
      = Cert.Spec.kd2 (argE m c) (argC m c) (Cert.Spec.row (blockOf t) b) j := by
  unfold bd2 Cert.Spec.kd2
  simp only [blk1_apply, blk2_apply, blk3_apply, blk4_apply]

/-- Block `s`'s contribution to the distance sums (zero past the last block). -/
def g0 (k j : Fin 64) (s : ℕ) : EReal :=
  if h : s < 10 then
    ∑ b : Fin 10000, Cert.Spec.oh (argL m c) (Cert.Spec.row ⟨s, h⟩ b) k
      * (Cert.Spec.kd2 (argE m c) (argC m c) (Cert.Spec.row ⟨s, h⟩ b) j * Ideal.rsqrt (Cert.Spec.kd2 (argE m c) (argC m c) (Cert.Spec.row ⟨s, h⟩ b) j))
  else 0

/-- Block `s`'s contribution to the squared-distance sums. -/
def g1 (k j : Fin 64) (s : ℕ) : EReal :=
  if h : s < 10 then
    ∑ b : Fin 10000, Cert.Spec.oh (argL m c) (Cert.Spec.row ⟨s, h⟩ b) k * Cert.Spec.kd2 (argE m c) (argC m c) (Cert.Spec.row ⟨s, h⟩ b) j
  else 0

/-- Block `s`'s contribution to the counts. -/
def g2 (k : Fin 64) (s : ℕ) : EReal :=
  if h : s < 10 then ∑ b : Fin 10000, Cert.Spec.oh (argL m c) (Cert.Spec.row ⟨s, h⟩ b) k else 0

/-- One step adds the point's block contribution, in each accumulator. -/
theorem step0_blk (t : Fin cfg0.N) (p0 : Vec Ideal S64x64 .f32) (k j : Fin 64) :
    step0 (blk0 m c t) (blk1 m c t) (blk2 m c t) (blk3 m c t) (blk4 m c t) p0 (ix2 k j) = p0 (ix2 k j) + g0 m c k j t.val := by
  have ht : t.val < 10 := lt_of_lt_of_eq t.isLt N_0
  rw [step0_apply, g0, dif_pos ht]
  refine congrArg (_ + ·) (Finset.sum_congr rfl fun b _ => ?_)
  rw [boh_blk, bd2_blk]
  rfl

theorem step1_blk (t : Fin cfg0.N) (p1 : Vec Ideal S64x64 .f32) (k j : Fin 64) :
    step1 (blk0 m c t) (blk1 m c t) (blk2 m c t) (blk3 m c t) (blk4 m c t) p1 (ix2 k j) = p1 (ix2 k j) + g1 m c k j t.val := by
  have ht : t.val < 10 := lt_of_lt_of_eq t.isLt N_0
  rw [step1_apply, g1, dif_pos ht]
  refine congrArg (_ + ·) (Finset.sum_congr rfl fun b _ => ?_)
  rw [boh_blk, bd2_blk]
  rfl

theorem step2_blk (t : Fin cfg0.N) (p2 : Vec Ideal S64x1 .f32) (k : Fin 64) :
    step2 (blk0 m c t) p2 (ix2 k (0 : Fin 1)) = p2 (ix2 k (0 : Fin 1)) + g2 m c k t.val := by
  have ht : t.val < 10 := lt_of_lt_of_eq t.isLt N_0
  rw [step2_apply, g2, dif_pos ht]
  refine congrArg (_ + ·) (Finset.sum_congr rfl fun b _ => ?_)
  rw [boh_blk]
  rfl

/-- After point `n` each accumulator holds the sum of the contributions of blocks `0 … n`. -/
theorem acc_sum (n : ℕ) (hn : n < cfg0.N) :
    (∀ k j : Fin 64, (outsAt0 m c n hn).2.1 (ix2 k j) = ∑ s ∈ Finset.range (n + 1), g0 m c k j s)
    ∧ (∀ k j : Fin 64, (outsAt0 m c n hn).2.2.1 (ix2 k j) = ∑ s ∈ Finset.range (n + 1), g1 m c k j s)
    ∧ (∀ k : Fin 64, (outsAt0 m c n hn).2.2.2 (ix2 k (0 : Fin 1)) = ∑ s ∈ Finset.range (n + 1), g2 m c k s) := by
  induction n with
  | zero =>
    have e := outs_first m c ⟨0, hn⟩ (Nat.zero_mod _) (by show ¬(0 : ℕ) % 10 = 9; decide)
    have e0 : (outsAt0 m c 0 hn).2.1 = step0 (blk0 m c ⟨0, hn⟩) (blk1 m c ⟨0, hn⟩) (blk2 m c ⟨0, hn⟩) (blk3 m c ⟨0, hn⟩) (blk4 m c ⟨0, hn⟩) (k0_pay11 (F := Ideal)) := congrArg Prod.fst e
    have e1 : (outsAt0 m c 0 hn).2.2.1 = step1 (blk0 m c ⟨0, hn⟩) (blk1 m c ⟨0, hn⟩) (blk2 m c ⟨0, hn⟩) (blk3 m c ⟨0, hn⟩) (blk4 m c ⟨0, hn⟩) (k0_pay12 (F := Ideal)) := congrArg (fun p => p.2.1) e
    have e2 : (outsAt0 m c 0 hn).2.2.2 = step2 (blk0 m c ⟨0, hn⟩) (k0_pay13 (F := Ideal)) := congrArg (fun p => p.2.2) e
    refine ⟨fun k j => ?_, fun k j => ?_, fun k => ?_⟩
    · rw [e0, step0_blk, pay11_apply, zero_add, Finset.sum_range_one]
    · rw [e1, step1_blk, pay12_apply, zero_add, Finset.sum_range_one]
    · rw [e2, step2_blk, pay13_apply, zero_add, Finset.sum_range_one]
  | succ n ih =>
    obtain ⟨ih0, ih1, ih2⟩ := ih (Nat.lt_of_succ_lt hn)
    have e := outs_succ m c n hn
    have e0 : (outsAt0 m c (n + 1) hn).2.1 = step0 (blk0 m c ⟨n + 1, hn⟩) (blk1 m c ⟨n + 1, hn⟩) (blk2 m c ⟨n + 1, hn⟩) (blk3 m c ⟨n + 1, hn⟩) (blk4 m c ⟨n + 1, hn⟩) (outsAt0 m c n (Nat.lt_of_succ_lt hn)).2.1 := congrArg Prod.fst e
    have e1 : (outsAt0 m c (n + 1) hn).2.2.1 = step1 (blk0 m c ⟨n + 1, hn⟩) (blk1 m c ⟨n + 1, hn⟩) (blk2 m c ⟨n + 1, hn⟩) (blk3 m c ⟨n + 1, hn⟩) (blk4 m c ⟨n + 1, hn⟩) (outsAt0 m c n (Nat.lt_of_succ_lt hn)).2.2.1 := congrArg (fun p => p.2.1) e
    have e2 : (outsAt0 m c (n + 1) hn).2.2.2 = step2 (blk0 m c ⟨n + 1, hn⟩) (outsAt0 m c n (Nat.lt_of_succ_lt hn)).2.2.2 := congrArg (fun p => p.2.2) e
    refine ⟨fun k j => ?_, fun k j => ?_, fun k => ?_⟩
    · rw [e0, step0_blk, ih0, Finset.sum_range_succ _ (n + 1)]
    · rw [e1, step1_blk, ih1, Finset.sum_range_succ _ (n + 1)]
    · rw [e2, step2_blk, ih2, Finset.sum_range_succ _ (n + 1)]

/-- The sums over blocks `0 … 9` are the first arrangement's block sums. -/
theorem sum_g0 (k j : Fin 64) : ∑ s ∈ Finset.range 10, g0 m c k j s = Cert.Spec.km1 (argE m c) (argL m c) (argC m c) k j := by
  rw [← Fin.sum_univ_eq_sum_range (fun s => g0 m c k j s) 10]
  unfold Cert.Spec.km1
  exact Finset.sum_congr rfl fun t _ => by rw [g0, dif_pos t.isLt]

theorem sum_g1 (k j : Fin 64) : ∑ s ∈ Finset.range 10, g1 m c k j s = Cert.Spec.km2 (argE m c) (argL m c) (argC m c) k j := by
  rw [← Fin.sum_univ_eq_sum_range (fun s => g1 m c k j s) 10]
  unfold Cert.Spec.km2
  exact Finset.sum_congr rfl fun t _ => by rw [g1, dif_pos t.isLt]

theorem sum_g2 (k : Fin 64) : ∑ s ∈ Finset.range 10, g2 m c k s = Cert.Spec.kcnt (argL m c) k := by
  rw [← Fin.sum_univ_eq_sum_range (fun s => g2 m c k s) 10]
  unfold Cert.Spec.kcnt
  exact Finset.sum_congr rfl fun t _ => by rw [g2, dif_pos t.isLt]

/-- The last point stores `finish` of the accumulators it leaves. -/
theorem out_eq_finish (t : Fin cfg0.N) (h0 : ¬t.val % 10 = 0) (h1 : t.val % 10 = 9) :
    (outsAt0 m c t.val t.isLt).1
      = finish (outsAt0 m c t.val t.isLt).2.1 (outsAt0 m c t.val t.isLt).2.2.1 (outsAt0 m c t.val t.isLt).2.2.2 := by
  rw [out_last m c t h0 h1, outs_last m c t h0 h1]

/-- The entry the last point stores is the loss in the first arrangement. -/
theorem out_kres (h9 : 9 < cfg0.N) :
    (outsAt0 m c 9 h9).1 (ix2 (0 : Fin 1) (0 : Fin 1)) = Cert.Spec.kres (argE m c) (argL m c) (argC m c) := by
  obtain ⟨a0, a1, a2⟩ :
      (∀ k j : Fin 64, (outsAt0 m c 9 h9).2.1 (ix2 k j) = ∑ s ∈ Finset.range 10, g0 m c k j s)
      ∧ (∀ k j : Fin 64, (outsAt0 m c 9 h9).2.2.1 (ix2 k j) = ∑ s ∈ Finset.range 10, g1 m c k j s)
      ∧ (∀ k : Fin 64, (outsAt0 m c 9 h9).2.2.2 (ix2 k (0 : Fin 1)) = ∑ s ∈ Finset.range 10, g2 m c k s) := acc_sum m c 9 h9
  have e := out_eq_finish m c ⟨9, h9⟩ (by show ¬(9 : ℕ) % 10 = 0; decide) (by show (9 : ℕ) % 10 = 9; decide)
  rw [show (outsAt0 m c 9 h9).1 = _ from e, finish_apply]
  unfold Cert.Spec.kres
  have hw : (fun k : Fin 64 => (outsAt0 m c 9 h9).2.2.2 (ix2 k (0 : Fin 1))) = Cert.Spec.kcnt (argL m c) :=
    funext fun k => (a2 k).trans (sum_g2 m c k)
  have ha : (fun k : Fin 64 => ∑ j : Fin 64, (outsAt0 m c 9 h9).2.2.1 (ix2 k j) * Cert.Spec.eye k j)
      = Cert.Spec.ka (argE m c) (argL m c) (argC m c) :=
    funext fun k => by
      unfold Cert.Spec.ka
      exact Finset.sum_congr rfl fun j _ => by rw [a1 k j, sum_g1]
  have hnum : (fun k : Fin 64 =>
        ((Cert.Spec.c6400 * (outsAt0 m c 9 h9).2.2.2 (ix2 k (0 : Fin 1)) - Cert.Spec.c20 * ∑ j : Fin 64, (outsAt0 m c 9 h9).2.1 (ix2 k j))
            + ∑ j : Fin 64, (outsAt0 m c 9 h9).2.2.1 (ix2 k j))
          - ((Cert.Spec.c100 * (outsAt0 m c 9 h9).2.2.2 (ix2 k (0 : Fin 1))
                - Cert.Spec.c20 * ∑ j : Fin 64, (outsAt0 m c 9 h9).2.1 (ix2 k j) * Cert.Spec.eye k j)
              + ∑ j : Fin 64, (outsAt0 m c 9 h9).2.2.1 (ix2 k j) * Cert.Spec.eye k j))
      = Cert.Spec.knum (argE m c) (argL m c) (argC m c) :=
    funext fun k => by
      unfold Cert.Spec.knum
      simp only [a0, a1, a2, sum_g0, sum_g1, sum_g2]
  rw [ha, hnum, hw]

end Cert.KernelIdeal.Acc

end
-- ==== Proof.KRun.lean ====
import proofs.«123934_g74603581931673_cont_9to1_m_1323_19_alg».proof.Proof.KAccum
import Idealize.ShloMosaic.Lib.StableHlo.Run

/-!
# The kernel's run, read

The pipeline writes the one-entry result array back once, at the last grid point, with the loss the last point
stored; the line after the call recasts that array to a scalar. So the program ends with its result at the loss in
the first arrangement, and its three arguments as they were.
-/

set_option maxRecDepth 16384

noncomputable section

namespace Cert.KernelIdeal.Acc

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (ρ : Dev nD → PrngReg)

/-- The one-entry result array holding the loss. -/
abbrev result (c : Dev nD) : Buf (Elt Ideal) ((c : Thread nD τ).loc main_v8) :=
  fun _ => Cert.Spec.kres (argE m c) (argL m c) (argC m c)

/-- What the last point left in the result's buffer is that array. -/
theorem last_out (c : Dev nD) : (outsAt0 m c t0_9.val t0_9.isLt).1 = result m c := by
  funext y
  have h0 : (y 0 : ℕ) < 1 := (y 0).isLt
  have h1 : (y 1 : ℕ) < 1 := (y 1).isLt
  have hy : y = ix2 (0 : Fin 1) (0 : Fin 1) := funext fun a => Fin.ext (by
    match a with
    | ⟨0, _⟩ => show (y 0 : ℕ) = 0; omega
    | ⟨1, _⟩ => show (y 1 : ℕ) = 0; omega)
  rw [hy]
  exact out_kres m c t0_9.isLt

/-- The only write-back of the result's window is at the last point, and it writes that array: the window's one block,
    at block index (0, 0), is the whole array. -/
theorem flushed5 (c : Dev nD) (t : Fin cfg0.N) (hf : (cfg0.win 5).flush t = true) :
    (dats m 0 c).flushed 5 t = ((cfg0.win 5).blk t).view.read (Elt Ideal) (result m c) := by
  have hN : cfg0.N = 10 := N_0
  have h9 : t.val = 9 := by have := (flush0_5 t).mp hf; have := t.isLt; omega
  obtain rfl : t = t0_9 := Fin.ext h9
  show (cfg0.win 5).cut (grid0.coords t0_9) ((dats m 0 c).after 5 t0_9) = _
  rw [after0_5, last_out]
  have hz' : (fun a => win0_5.index t0_9 a * main_v8.ty.shape.size a) = fun _ => 0 := funext fun a => by fin_cases a <;> decide
  exact (Memref.read_access_unit_zero (Elt Ideal) main_v8 hz' (fun a => by rw [congrFun hz' a]; simp) (result m c)).symm

/-- So the result array ends holding the loss: the last point's block covers its one entry. -/
theorem final5 (c : Dev nD) : (dats m 0 c).arrAt 5 cfg0.N = result m c :=
  (dats m 0 c).arrAt_eq_of_cover 5 (result m c) (flushed5 m c) fun i =>
    ⟨t0_9, (flush0_5 t0_9).mpr rfl, by
      show i ∈ ((View.whole main_v8).slice (win0_5.rect t0_9)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index t0_9 0 * win0_5.size 0 ≤ (i 0 : Nat) ∧ (i 0 : Nat) < win0_5.index t0_9 0 * win0_5.size 0 + win0_5.xsize (grid0.coords t0_9) 0
        rw [show win0_5.index t0_9 0 * win0_5.size 0 = 0 from by decide +kernel, show win0_5.xsize (grid0.coords t0_9) 0 = 1 from by decide +kernel]; omega
      | ⟨1, _⟩ =>
        show win0_5.index t0_9 1 * win0_5.size 1 ≤ (i 1 : Nat) ∧ (i 1 : Nat) < win0_5.index t0_9 1 * win0_5.size 1 + win0_5.xsize (grid0.coords t0_9) 1
        rw [show win0_5.index t0_9 1 * win0_5.size 1 = 0 from by decide +kernel, show win0_5.xsize (grid0.coords t0_9) 1 = 1 from by decide +kernel]; omega⟩

/-- The line after the call recasts the one-entry array to a scalar: the scalar is the loss. -/
theorem tail9 (c : Dev nD) :
    Pipeline.afterTail₀ cfgs (dats m) 0 (V0 m) [hostOps1] c main_v9
      = fun _ => Cert.Spec.kres (argE m c) (argL m c) (argC m c) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = result m c :=
    (Pipeline.withArrays_arr spec0 launch0.win.arr_inj c _ _ 5).trans (final5 m c)
  rw [e]
  rfl

/-- Every fair execution of the kernel's program ends with its result at the loss in the first arrangement and its three
    arguments unchanged. -/
theorem kernel_run :
    θ_run defs (onTc (τ := τ) (main (F := Ideal))) ⟨m, fun _ => 0, ρ⟩ fun r => ∀ c : Dev nD,
      r.2.mem ((c.tc : Thread nD τ).loc main_v9) = (fun _ => Cert.Spec.kres (argE m c) (argL m c) (argC m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail9 m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefValue.lean ====
import proofs.«123934_g74603581931673_cont_9to1_m_1323_19_alg».proof.Proof.RefRead
import proofs.«123934_g74603581931673_cont_9to1_m_1323_19_alg».proof.Proof.Spec
import Idealize.ShloMosaic.PureOps.Ideal.Laws
import Idealize.ShloMosaic.Lib.ValueIdx

/-!
# The reference's result is the second arrangement

Stage by stage the host program computes `|e|² + |c|² − 2 e·c`, clamps it, takes the root, builds the one-hot of
the labels, and forms the per-cluster sums and the loss: `Cert.Spec.rres` of its three arguments.
-/

noncomputable section

namespace Cert.ReferenceIdeal.RefValue

open Idealize.ShloMosaic Idealize.ShloMosaic.ValueIdx Cert.ReferenceIdeal Cert.ReferenceIdeal.Read
open scoped BigOperators

section Stages

variable (x0 : (⟨S100000x64, .f32⟩ : BufTy).Contents (Elt Ideal)) (x1 : (⟨S100000, .i32⟩ : BufTy).Contents (Elt Ideal))
  (x2 : (⟨S64x64, .f32⟩ : BufTy).Contents (Elt Ideal))

/-- The squared length of point `n`. -/
theorem v1_at (n : Fin 100000) : val_main_v1 (F := Ideal) x0 (ix1 n) = Cert.Spec.esq x0 n := by
  rw [val_main_v1_apply, val_main_cst_apply, Ideal.ofBits_def, Ideal.ofBits_zero_f32, zero_add]
  unfold Cert.Spec.esq
  refine Finset.sum_congr rfl fun d _ => ?_
  have e : idx_main_v1 (ix1 n) d = ix2 n d :=
    funext fun a => Fin.ext (by match a with | ⟨0, _⟩ => rfl | ⟨1, _⟩ => rfl)
  rw [val_main_v0_apply, Ideal.mulf_def, e]

/-- The squared length of centroid `j`. -/
theorem v4_at (j : Fin 64) : val_main_v4 (F := Ideal) x2 (ix1 j) = Cert.Spec.csq x2 j := by
  rw [val_main_v4_apply, val_main_cst_0_apply, Ideal.ofBits_def, Ideal.ofBits_zero_f32, zero_add]
  unfold Cert.Spec.csq
  refine Finset.sum_congr rfl fun d _ => ?_
  have e : idx_main_v4 (ix1 j) d = ix2 j d :=
    funext fun a => Fin.ext (by match a with | ⟨0, _⟩ => rfl | ⟨1, _⟩ => rfl)
  rw [val_main_v3_apply, Ideal.mulf_def, e]

/-- The two squared lengths, spread over the rectangle and added. -/
theorem v8_at (n : Fin 100000) (j : Fin 64) :
    val_main_v8 (F := Ideal) x0 x2 (ix2 n j) = Cert.Spec.esq x0 n + Cert.Spec.csq x2 j := by
  have e1 : idx_main_v2 (idx_main_v6 (ix2 n j)) = ix1 n :=
    funext fun a => Fin.ext (by match a with | ⟨0, _⟩ => rfl)
  have e2 : idx_main_v5 (idx_main_v7 (ix2 n j)) = ix1 j :=
    funext fun a => Fin.ext (by match a with | ⟨0, _⟩ => rfl)
  rw [val_main_v8_apply, Ideal.addf_def, val_main_v6_apply, val_main_v2_apply, val_main_v7_apply, val_main_v5_apply,
    e1, e2, v1_at, v4_at]

/-- The inner product of point `n` with centroid `j`. -/
theorem v10_at (n : Fin 100000) (j : Fin 64) :
    val_main_v10 (F := Ideal) x0 x2 (ix2 n j) = ∑ d : Fin 64, x0 (ix2 n d) * x2 (ix2 j d) := by
  rw [val_main_v10_apply]
  refine Finset.sum_congr rfl fun d _ => ?_
  have el : lidx_main_v10 (ix2 n j) d = ix2 n d :=
    funext fun a => Fin.ext (by match a with | ⟨0, _⟩ => rfl | ⟨1, _⟩ => rfl)
  have er : idx_main_v9 (ridx_main_v10 (ix2 n j) d) = ix2 j d :=
    funext fun a => Fin.ext (by match a with | ⟨0, _⟩ => rfl | ⟨1, _⟩ => rfl)
  rw [val_main_v9_apply, el, er]

/-- The clamped squared distance. -/
theorem v15_at (n : Fin 100000) (j : Fin 64) :
    val_main_v15 (F := Ideal) x0 x2 (ix2 n j) = Cert.Spec.rd2 x0 x2 n j := by
  rw [val_main_v15_apply, Ideal.maximumf_def, val_main_v13_apply, Ideal.subf_def, val_main_v12_apply, Ideal.mulf_def,
    val_main_v11_apply, val_main_cst_1_apply, val_main_v14_apply, val_main_cst_2_apply, v8_at, v10_at]
  rfl

/-- The distance. -/
theorem v16_at (n : Fin 100000) (j : Fin 64) :
    val_main_v16 (F := Ideal) x0 x2 (ix2 n j) = Cert.Spec.rD x0 x2 n j := by
  rw [val_main_v16_apply, Ideal.hostUnary_sqrt_def, v15_at]
  rfl

/-- The indicator that point `n` carries label `k`: the comparison's bit, read as a number. -/
theorem v17_at (n : Fin 100000) (k : Fin 64) :
    val_main_v17 (F := Ideal) x1 (ix2 n k) = Cert.Spec.oh x1 n k := by
  have e1 : idx_main_call0_v0 (idx_main_call0_v2 (ix2 n k)) = ix1 n :=
    funext fun a => Fin.ext (by match a with | ⟨0, _⟩ => rfl)
  rw [val_main_v17_apply, val_main_call0_v4_apply, val_main_call0_v2_apply, val_main_call0_v0_apply,
    val_main_call0_v3_apply, val_main_call0_v1_apply, e1]
  unfold Cert.Spec.oh
  show (((IntOp.cmpi .eq (x1 (ix1 n)) (BitVec.ofNat 32 k.val)).toNat : ℝ) : EReal) = _
  by_cases h : x1 (ix1 n) = BitVec.ofNat 32 k.val
  · rw [if_pos h, h]; simp [IntOp.cmpi]
  · rw [if_neg h]; simp [IntOp.cmpi, h]

/-- The number of points of cluster `k`. -/
theorem v18_at (k : Fin 64) : val_main_v18 (F := Ideal) x1 (ix1 k) = Cert.Spec.cnt x1 k := by
  rw [val_main_v18_apply, val_main_cst_3_apply, Ideal.ofBits_def, Ideal.ofBits_zero_f32, zero_add]
  unfold Cert.Spec.cnt
  refine Finset.sum_congr rfl fun n _ => ?_
  have e : idx_main_v18 (ix1 k) n = ix2 n k :=
    funext fun a => Fin.ext (by match a with | ⟨0, _⟩ => rfl | ⟨1, _⟩ => rfl)
  rw [e, v17_at]

/-- The attraction sum of cluster `k`. -/
theorem v21_at (k : Fin 64) : val_main_v21 (F := Ideal) x0 x1 x2 (ix1 k) = Cert.Spec.ra x0 x1 x2 k := by
  rw [val_main_v21_apply, val_main_cst_4_apply, Ideal.ofBits_def, Ideal.ofBits_zero_f32, zero_add]
  unfold Cert.Spec.ra
  refine Finset.sum_congr rfl fun n _ => ?_
  have e : idx_main_v21 (ix1 k) n = ix2 n k :=
    funext fun a => Fin.ext (by match a with | ⟨0, _⟩ => rfl | ⟨1, _⟩ => rfl)
  rw [e, val_main_v20_apply, Ideal.mulf_def, val_main_v19_apply, Ideal.mulf_def, v17_at, v16_at]

/-- The squared hinge of point `n` against centroid `j`. -/
theorem v28_at (n : Fin 100000) (j : Fin 64) :
    val_main_v28 (F := Ideal) x0 x2 (ix2 n j) = Cert.Spec.hinge x0 x2 n j := by
  rw [val_main_v28_apply, Ideal.maximumf_def, val_main_v27_apply, Ideal.mulf_def, val_main_v26_apply, Ideal.subf_def,
    val_main_v25_apply, val_main_cst_6_apply, val_main_call1_v0_apply, val_main_call1_cst_apply, v16_at,
    Ideal.ofBits_def (φ := .f32) 0x00000000#32, Ideal.ofBits_zero_f32]
  rfl

/-- All of point `n`'s hinges, summed over the centroids. -/
theorem v29_at (n : Fin 100000) :
    val_main_v29 (F := Ideal) x0 x2 (ix1 n) = ∑ j : Fin 64, Cert.Spec.hinge x0 x2 n j := by
  rw [val_main_v29_apply, val_main_cst_7_apply, Ideal.ofBits_def, Ideal.ofBits_zero_f32, zero_add]
  refine Finset.sum_congr rfl fun j _ => ?_
  have e : idx_main_v29 (ix1 n) j = ix2 n j :=
    funext fun a => Fin.ext (by match a with | ⟨0, _⟩ => rfl | ⟨1, _⟩ => rfl)
  rw [e, v28_at]

/-- Cluster `k`'s points' hinges against every centroid. -/
theorem v33_at (k : Fin 64) :
    val_main_v33 (F := Ideal) x0 x1 x2 (ix1 k)
      = ∑ n : Fin 100000, Cert.Spec.oh x1 n k * ∑ j : Fin 64, Cert.Spec.hinge x0 x2 n j := by
  rw [val_main_v33_apply, val_main_cst_8_apply, Ideal.ofBits_def, Ideal.ofBits_zero_f32, zero_add]
  refine Finset.sum_congr rfl fun n _ => ?_
  have e : idx_main_v33 (ix1 k) n = ix2 n k :=
    funext fun a => Fin.ext (by match a with | ⟨0, _⟩ => rfl | ⟨1, _⟩ => rfl)
  have e' : idx_main_v30 (idx_main_v31 (ix2 n k)) = ix1 n :=
    funext fun a => Fin.ext (by match a with | ⟨0, _⟩ => rfl)
  rw [e, val_main_v32_apply, Ideal.mulf_def, val_main_v31_apply, val_main_v30_apply, e', v17_at, v29_at]

/-- Cluster `k`'s points' hinges against their own centroid. -/
theorem v35_at (k : Fin 64) :
    val_main_v35 (F := Ideal) x0 x1 x2 (ix1 k)
      = ∑ n : Fin 100000, Cert.Spec.oh x1 n k * Cert.Spec.hinge x0 x2 n k := by
  rw [val_main_v35_apply, val_main_cst_9_apply, Ideal.ofBits_def, Ideal.ofBits_zero_f32, zero_add]
  refine Finset.sum_congr rfl fun n _ => ?_
  have e : idx_main_v35 (ix1 k) n = ix2 n k :=
    funext fun a => Fin.ext (by match a with | ⟨0, _⟩ => rfl | ⟨1, _⟩ => rfl)
  rw [e, val_main_v34_apply, Ideal.mulf_def, v17_at, v28_at]

/-- The repulsion sum of cluster `k`. -/
theorem v36_at (k : Fin 64) : val_main_v36 (F := Ideal) x0 x1 x2 (ix1 k) = Cert.Spec.rnum x0 x1 x2 k := by
  rw [val_main_v36_apply, Ideal.subf_def, v33_at, v35_at]
  rfl

/-- The attraction's divisor: the count, at least one. -/
theorem v23_at (k : Fin 64) :
    val_main_v23 (F := Ideal) x1 (ix1 k) = max (Cert.Spec.cnt x1 k) Cert.Spec.one := by
  rw [val_main_v23_apply, Ideal.maximumf_def, val_main_v22_apply, val_main_cst_5_apply, v18_at]
  rfl

/-- The mean attraction of cluster `k`. -/
theorem v24_at (k : Fin 64) :
    val_main_v24 (F := Ideal) x0 x1 x2 (ix1 k)
      = Ideal.div (Cert.Spec.ra x0 x1 x2 k) (max (Cert.Spec.cnt x1 k) Cert.Spec.one) := by
  rw [val_main_v24_apply, Ideal.hostDivf_def, v21_at, v23_at]

/-- The repulsion's divisor: sixty-three times the count, at least one. -/
theorem v40_at (k : Fin 64) :
    val_main_v40 (F := Ideal) x1 (ix1 k) = max (Cert.Spec.cnt x1 k * Cert.Spec.c63) Cert.Spec.one := by
  rw [val_main_v40_apply, Ideal.maximumf_def, val_main_v38_apply, Ideal.mulf_def, val_main_v37_apply,
    val_main_cst_10_apply, val_main_v39_apply, val_main_cst_11_apply, v18_at]
  rfl

/-- The mean repulsion of cluster `k`. -/
theorem v41_at (k : Fin 64) :
    val_main_v41 (F := Ideal) x0 x1 x2 (ix1 k)
      = Ideal.div (Cert.Spec.rnum x0 x1 x2 k) (max (Cert.Spec.cnt x1 k * Cert.Spec.c63) Cert.Spec.one) := by
  rw [val_main_v41_apply, Ideal.hostDivf_def, v36_at, v40_at]

/-- The bit saying cluster `k` has a positive count. -/
theorem v43_at (k : Fin 64) :
    val_main_v43 (F := Ideal) x1 (ix1 k) = BitVec.ofBool (decide (0 < Cert.Spec.cnt x1 k)) := by
  rw [val_main_v43_apply, Ideal.cmpf_def, val_main_v42_apply, val_main_cst_12_apply, Ideal.ofBits_def,
    Ideal.ofBits_zero_f32, v18_at]
  rfl

/-- The mean attraction where the count is positive, zero elsewhere. -/
theorem v44_at (k : Fin 64) :
    val_main_v44 (F := Ideal) x0 x1 x2 (ix1 k)
      = if 0 < Cert.Spec.cnt x1 k then
          Ideal.div (Cert.Spec.ra x0 x1 x2 k) (max (Cert.Spec.cnt x1 k) Cert.Spec.one) else 0 := by
  rw [val_main_v44_apply, v43_at, v24_at, val_main_call2_v1_apply, val_main_call2_v0_apply, val_main_cst_13_apply,
    Ideal.ofBits_def, Ideal.ofBits_zero_f32]
  by_cases h : 0 < Cert.Spec.cnt x1 k
  · rw [if_pos h, decide_eq_true h]; exact select_one _ _
  · rw [if_neg h, decide_eq_false h]; exact select_zero _ _

/-- The mean repulsion where the count is positive, zero elsewhere. -/
theorem v46_at (k : Fin 64) :
    val_main_v46 (F := Ideal) x0 x1 x2 (ix1 k)
      = if 0 < Cert.Spec.cnt x1 k then
          Ideal.div (Cert.Spec.rnum x0 x1 x2 k) (max (Cert.Spec.cnt x1 k * Cert.Spec.c63) Cert.Spec.one) else 0 := by
  rw [val_main_v46_apply, v43_at, v41_at, val_main_call3_v1_apply, val_main_call3_v0_apply, val_main_cst_15_apply,
    Ideal.ofBits_def, Ideal.ofBits_zero_f32]
  by_cases h : 0 < Cert.Spec.cnt x1 k
  · rw [if_pos h, decide_eq_true h]; exact select_one _ _
  · rw [if_neg h, decide_eq_false h]; exact select_zero _ _

/-- The positive-count bit read as a number. -/
theorem v48_at (k : Fin 64) :
    val_main_v48 (F := Ideal) x1 (ix1 k) = if 0 < Cert.Spec.cnt x1 k then (1 : EReal) else 0 := by
  rw [val_main_v48_apply, v43_at]
  show (((BitVec.ofBool (decide (0 < Cert.Spec.cnt x1 k))).toNat : ℝ) : EReal) = _
  by_cases h : 0 < Cert.Spec.cnt x1 k
  · rw [if_pos h, decide_eq_true h]; simp
  · rw [if_neg h, decide_eq_false h]; simp

/-- A one-axis index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Stages

/-- The last stage's value is the loss in the second arrangement. -/
theorem ref_result (x0 : (⟨S100000x64, .f32⟩ : BufTy).Contents (Elt Ideal)) (x1 : (⟨S100000, .i32⟩ : BufTy).Contents (Elt Ideal))
    (x2 : (⟨S64x64, .f32⟩ : BufTy).Contents (Elt Ideal)) :
    val_main_v51 (F := Ideal) x0 x1 x2 = fun _ => Cert.Spec.rres x0 x1 x2 := by
  funext i
  rw [val_main_v51_apply, Ideal.hostDivf_def, val_main_v50_apply, Ideal.addf_def, val_main_v45_apply, val_main_v47_apply,
    val_main_v49_apply, val_main_cst_14_apply, val_main_cst_16_apply, val_main_cst_17_apply, Ideal.ofBits_def,
    Ideal.ofBits_zero_f32, zero_add, zero_add, zero_add, sum_idx1, sum_idx1, sum_idx1]
  simp only [v44_at, v46_at, v48_at]
  rfl

end Cert.ReferenceIdeal.RefValue

end
-- ==== Proof.LibReal.lean ====
/-
  Real numbers inside the extended reals: a finite sum of reals is real, the quotient of reals by a non-zero real is
  their real quotient, the square root of a non-negative real is its real square root.
-/
import Idealize.ShloMosaic.PureOps.Ideal
import Idealize.ShloMosaic.PureOps.Ideal.Laws

noncomputable section

open scoped BigOperators

namespace Cert.LibReal

open Idealize.ShloMosaic

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul]; congr 1; field_simp

/-- The square root of a non-negative real. -/
theorem sqrt_coe_nonneg (a : ℝ) (ha : 0 ≤ a) : Ideal.sqrt (a : EReal) = ((Real.sqrt a : ℝ) : EReal) := by
  rw [Ideal.sqrt_coe, if_neg (not_lt.mpr ha)]

/-- A real minus itself. -/
theorem coe_sub_self (a : ℝ) : (a : EReal) - (a : EReal) = 0 := by
  rw [← EReal.coe_sub, sub_self, EReal.coe_zero]

end Cert.LibReal

end
-- ==== Proof.SpecLaw.lean ====
import proofs.«123934_g74603581931673_cont_9to1_m_1323_19_alg».proof.Proof.Spec
import proofs.«123934_g74603581931673_cont_9to1_m_1323_19_alg».proof.Proof.LibReal
import Mathlib.Analysis.SpecialFunctions.Sqrt
import Mathlib.Logic.Equiv.Fin.Basic
import Mathlib.Algebra.BigOperators.Fin

/-!
# The two arrangements agree on finite inputs

With every entry of the points and of the centroids a real number, all sums are real sums and the two
arrangements of `Cert.Spec` are equal: the expanded square is the square, `d2 · d2^(−1/2)` is `√d2` for `d2 > 0`,
`√d2 · √d2 = d2`, the squared hinge is the square, `Σ (10 − D)² = 6400 − 20 ΣD + ΣD²` over 64 centroids, and a sum
over ten blocks of ten thousand is the sum over all hundred thousand points.
-/

noncomputable section

namespace Cert.Spec

open Idealize.ShloMosaic Idealize.ShloMosaic.ValueIdx
open scoped BigOperators

/-! ### The float words as real numbers -/

theorem neg2_eq : neg2 = ((-2 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem one_eq : one = ((1 : ℝ) : EReal) := by
  simp [Ideal.ofBits, Ideal.ieee, -EReal.coe_mul]; norm_num
theorem ten_eq : ten = ((10 : ℝ) : EReal) := by
  simp [Ideal.ofBits, Ideal.ieee, -EReal.coe_mul]; norm_num
theorem c20_eq : c20 = ((20 : ℝ) : EReal) := by
  simp [Ideal.ofBits, Ideal.ieee, -EReal.coe_mul]; norm_num
theorem c100_eq : c100 = ((100 : ℝ) : EReal) := by
  simp [Ideal.ofBits, Ideal.ieee, -EReal.coe_mul]; norm_num
theorem c6400_eq : c6400 = ((6400 : ℝ) : EReal) := by
  simp [Ideal.ofBits, Ideal.ieee, -EReal.coe_mul]; norm_num

/-- The clamp is a positive real number. -/
theorem eps_pos : ∃ r : ℝ, 0 < r ∧ eps = (r : EReal) := by
  simp [Ideal.ofBits, Ideal.ieee, -EReal.coe_mul]

/-- The clamp, as a real number. -/
def epsR : ℝ := Classical.choose eps_pos

theorem epsR_pos : 0 < epsR := (Classical.choose_spec eps_pos).1

theorem eps_eq : eps = (epsR : EReal) := (Classical.choose_spec eps_pos).2

/-! ### Real numbers inside the extended reals -/

theorem coe_max (x y : ℝ) : ((max x y : ℝ) : EReal) = max (x : EReal) (y : EReal) :=
  EReal.coe_strictMono.monotone.map_max

/-! ### Ten blocks of ten thousand are the hundred thousand -/

theorem block_sum {M : Type*} [AddCommMonoid M] (f : Fin 100000 → M) :
    ∑ t : Fin 10, ∑ b : Fin 10000, f (row t b) = ∑ n : Fin 100000, f n := by
  rw [← Fintype.sum_prod_type']
  refine Fintype.sum_equiv (finProdFinEquiv : Fin 10 × Fin 10000 ≃ Fin 100000) _ _ fun x => ?_
  congr 1
  apply Fin.ext
  simp [finProdFinEquiv, row]
  omega

/-! ### Identities between real sums -/

/-- The expanded square of the difference, summed. -/
theorem real_expand (u v : Fin 64 → ℝ) :
    ((∑ d, u d * (-2 * v d)) + ∑ d, (u d * u d) * 1) + ∑ d, v d * v d
      = ((∑ d, u d * u d) + ∑ d, v d * v d) - 2 * ∑ d, u d * v d := by
  rw [Finset.mul_sum, ← Finset.sum_add_distrib, ← Finset.sum_add_distrib, ← Finset.sum_add_distrib,
    ← Finset.sum_sub_distrib]
  exact Finset.sum_congr rfl fun d _ => by ring

/-- One centroid: the square summed over a cluster, expanded. -/
theorem real_one {ι : Type*} [Fintype ι] (o D d : ι → ℝ) (h : ∀ n, D n * D n = d n) :
    ∑ n, o n * ((10 - D n) * (10 - D n)) = (100 * ∑ n, o n - 20 * ∑ n, o n * D n) + ∑ n, o n * d n := by
  rw [Finset.mul_sum, Finset.mul_sum, ← Finset.sum_sub_distrib, ← Finset.sum_add_distrib]
  exact Finset.sum_congr rfl fun n _ => by rw [← h n]; ring

/-- All sixty-four centroids: the squares summed over a cluster, expanded. -/
theorem real_all {ι : Type*} [Fintype ι] (o : ι → ℝ) (D d : ι → Fin 64 → ℝ) (h : ∀ n j, D n j * D n j = d n j) :
    ∑ n, o n * ∑ j, (10 - D n j) * (10 - D n j)
      = (6400 * ∑ n, o n - 20 * ∑ j, ∑ n, o n * D n j) + ∑ j, ∑ n, o n * d n j := by
  have e1 : ∀ n, o n * ∑ j, (10 - D n j) * (10 - D n j) = ∑ j, o n * ((10 - D n j) * (10 - D n j)) :=
    fun n => Finset.mul_sum _ _ _
  simp only [e1]
  rw [Finset.sum_comm]
  have e2 : ∀ j, ∑ n, o n * ((10 - D n j) * (10 - D n j))
      = (100 * ∑ n, o n - 20 * ∑ n, o n * D n j) + ∑ n, o n * d n j :=
    fun j => real_one o (fun n => D n j) (fun n => d n j) (fun n => h n j)
  simp only [e2]
  rw [Finset.sum_add_distrib, Finset.sum_sub_distrib, Finset.sum_const, Finset.card_univ, Fintype.card_fin,
    ← Finset.mul_sum]
  norm_num
  ring

/-! ### The quantities as real numbers -/

section Twins

variable (L : SL.Idx → BitVec 32) (e : SE.Idx → ℝ) (c : SC.Idx → ℝ)

/-- The indicator, as a real number. -/
def ohR (n : Fin 100000) (k : Fin 64) : ℝ := if L (ix1 n) = BitVec.ofNat 32 k.val then 1 else 0

/-- The clamped squared distance, as a real number. -/
def d2R (n : Fin 100000) (j : Fin 64) : ℝ :=
  max (((∑ d : Fin 64, e (ix2 n d) * e (ix2 n d)) + ∑ d : Fin 64, c (ix2 j d) * c (ix2 j d))
    - 2 * ∑ d : Fin 64, e (ix2 n d) * c (ix2 j d)) epsR

/-- The distance, as a real number. -/
def DR (n : Fin 100000) (j : Fin 64) : ℝ := Real.sqrt (d2R e c n j)

theorem d2R_pos (n : Fin 100000) (j : Fin 64) : 0 < d2R e c n j :=
  lt_of_lt_of_le epsR_pos (le_max_right _ _)

theorem DR_mul_self (n : Fin 100000) (j : Fin 64) : DR e c n j * DR e c n j = d2R e c n j :=
  Real.mul_self_sqrt (d2R_pos e c n j).le

theorem oh_eq (n : Fin 100000) (k : Fin 64) : oh L n k = (ohR L n k : EReal) := by
  unfold oh ohR; split_ifs <;> simp

end Twins

/-- A sum against a row of the diagonal's indicator picks one term. -/
theorem sum_mul_eye (x : Fin 64 → EReal) (k : Fin 64) : ∑ j, x j * eye k j = x k := by
  simp [eye, mul_ite]

section Finite

variable {E : SE.Idx → EReal} {C : SC.Idx → EReal} {e : SE.Idx → ℝ} {c : SC.Idx → ℝ}

/-- The expanded form of the clamped squared distance. -/
theorem kd2_eq (he : ∀ i, E i = (e i : EReal)) (hc : ∀ i, C i = (c i : EReal)) (n : Fin 100000) (j : Fin 64) :
    kd2 E C n j = (d2R e c n j : EReal) := by
  unfold kd2 csq d2R
  simp only [he, hc, neg2_eq, one_eq, eps_eq, ← EReal.coe_mul, LibReal.coe_sum, ← EReal.coe_add]
  rw [coe_max]
  refine congrArg (fun x : ℝ => max (x : EReal) (epsR : EReal)) ?_
  exact real_expand (fun d => e (ix2 n d)) (fun d => c (ix2 j d))

/-- The direct form of the clamped squared distance. -/
theorem rd2_eq (he : ∀ i, E i = (e i : EReal)) (hc : ∀ i, C i = (c i : EReal)) (n : Fin 100000) (j : Fin 64) :
    rd2 E C n j = (d2R e c n j : EReal) := by
  unfold rd2 esq csq d2R
  simp only [he, hc, two_eq, eps_eq, ← EReal.coe_mul, LibReal.coe_sum, ← EReal.coe_add, ← EReal.coe_sub, coe_max]

/-- The distance. -/
theorem rD_eq (he : ∀ i, E i = (e i : EReal)) (hc : ∀ i, C i = (c i : EReal)) (n : Fin 100000) (j : Fin 64) :
    rD E C n j = (DR e c n j : EReal) := by
  unfold rD DR
  rw [rd2_eq he hc, LibReal.sqrt_coe_nonneg _ (d2R_pos e c n j).le]

/-- A positive number times its inverse root is its root. -/
theorem kroot_eq (he : ∀ i, E i = (e i : EReal)) (hc : ∀ i, C i = (c i : EReal)) (n : Fin 100000) (j : Fin 64) :
    kd2 E C n j * Ideal.rsqrt (kd2 E C n j) = (DR e c n j : EReal) := by
  have hp := d2R_pos e c n j
  rw [kd2_eq he hc, Ideal.rsqrt_coe, if_neg (not_lt.mpr hp.le), if_neg hp.ne', ← EReal.coe_mul]
  congr 1
  unfold DR
  rw [mul_inv_eq_iff_eq_mul₀ (Real.sqrt_pos.mpr hp).ne']
  exact (Real.mul_self_sqrt hp.le).symm

/-- The squared hinge is the square. -/
theorem hinge_eq (he : ∀ i, E i = (e i : EReal)) (hc : ∀ i, C i = (c i : EReal)) (n : Fin 100000) (j : Fin 64) :
    hinge E C n j = (((10 - DR e c n j) * (10 - DR e c n j) : ℝ) : EReal) := by
  unfold hinge
  rw [rD_eq he hc, ten_eq, ← EReal.coe_sub, ← EReal.coe_mul]
  exact max_eq_left (EReal.coe_nonneg.mpr (mul_self_nonneg _))

end Finite

section Sums

variable {E : SE.Idx → EReal} {C : SC.Idx → EReal} {e : SE.Idx → ℝ} {c : SC.Idx → ℝ}

/-- The count, as a real number. -/
theorem cnt_eq (L : SL.Idx → BitVec 32) (k : Fin 64) : cnt L k = ((∑ n, ohR L n k : ℝ) : EReal) := by
  unfold cnt
  simp only [oh_eq, LibReal.coe_sum]

/-- (W) The count block by block is the count. -/
theorem kcnt_eq_cnt (L : SL.Idx → BitVec 32) (k : Fin 64) : kcnt L k = cnt L k :=
  block_sum (fun n => oh L n k)

/-- The summed distances of a cluster's points to a centroid. -/
theorem km1_eq (L : SL.Idx → BitVec 32) (he : ∀ i, E i = (e i : EReal)) (hc : ∀ i, C i = (c i : EReal))
    (k j : Fin 64) : km1 E L C k j = ((∑ n, ohR L n k * DR e c n j : ℝ) : EReal) := by
  unfold km1
  rw [block_sum (fun n => oh L n k * (kd2 E C n j * Ideal.rsqrt (kd2 E C n j)))]
  simp only [oh_eq, kroot_eq he hc, ← EReal.coe_mul, LibReal.coe_sum]

/-- The summed squared distances of a cluster's points to a centroid. -/
theorem km2_eq (L : SL.Idx → BitVec 32) (he : ∀ i, E i = (e i : EReal)) (hc : ∀ i, C i = (c i : EReal))
    (k j : Fin 64) : km2 E L C k j = ((∑ n, ohR L n k * d2R e c n j : ℝ) : EReal) := by
  unfold km2
  rw [block_sum (fun n => oh L n k * kd2 E C n j)]
  simp only [oh_eq, kd2_eq he hc, ← EReal.coe_mul, LibReal.coe_sum]

/-- (A) The attraction sums agree. -/
theorem ka_eq_ra (L : SL.Idx → BitVec 32) (he : ∀ i, E i = (e i : EReal)) (hc : ∀ i, C i = (c i : EReal))
    (k : Fin 64) : ka E L C k = ra E L C k := by
  unfold ka ra
  rw [sum_mul_eye, km2_eq L he hc]
  simp only [oh_eq, rD_eq he hc, ← EReal.coe_mul, DR_mul_self, LibReal.coe_sum]

/-- (N) The repulsion sums agree. -/
theorem knum_eq_rnum (L : SL.Idx → BitVec 32) (he : ∀ i, E i = (e i : EReal)) (hc : ∀ i, C i = (c i : EReal))
    (k : Fin 64) : knum E L C k = rnum E L C k := by
  unfold knum rnum
  simp only [sum_mul_eye, kcnt_eq_cnt, cnt_eq, km1_eq L he hc, km2_eq L he hc, c6400_eq, c20_eq, c100_eq, oh_eq,
    hinge_eq he hc, LibReal.coe_sum, ← EReal.coe_mul, ← EReal.coe_sub, ← EReal.coe_add]
  refine congrArg Real.toEReal ?_
  rw [real_all (fun n => ohR L n k) (DR e c) (d2R e c) (DR_mul_self e c),
    real_one (fun n => ohR L n k) (fun n => DR e c n k) (fun n => d2R e c n k) (fun n => DR_mul_self e c n k)]

end Sums

/-- On finite inputs the two arrangements give the same loss. -/
theorem kres_eq_rres (E : SE.Idx → EReal) (L : SL.Idx → BitVec 32) (C : SC.Idx → EReal)
    (hE : ∀ i, ∃ r : ℝ, E i = (r : EReal)) (hC : ∀ i, ∃ r : ℝ, C i = (r : EReal)) :
    kres E L C = rres E L C := by
  choose e he using hE
  choose c hc using hC
  unfold kres rres
  rw [show ka E L C = ra E L C from funext fun k => ka_eq_ra L he hc k,
    show knum E L C = rnum E L C from funext fun k => knum_eq_rnum L he hc k,
    show kcnt L = cnt L from funext fun k => kcnt_eq_cnt L k]

end Cert.Spec

end
-- ==== Proof.Finite.lean ====
import proofs.«123934_g74603581931673_cont_9to1_m_1323_19_alg».proof.Pre_finite_inputs
import proofs.«123934_g74603581931673_cont_9to1_m_1323_19_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

/-!
# The precondition says every float entry is a real number

The printed predicate is the conjunction, over both float arrays, of "every |x| is below +∞"; an extended real
whose absolute value is below +∞ is a real.
-/

noncomputable section

namespace Cert.Finite

open Idealize.ShloMosaic Idealize.ShloMosaic.ValueIdx Cert.Pre_finite_inputs

/-- The word of +∞ denotes the top element of the extended reals. -/
theorem ofBits_inf : Ideal.ofBits .f32 0x7F800000#32 = (⊤ : EReal) := by
  simp [Ideal.ofBits, Ideal.ieee]

/-- An extended real whose absolute value `max a (-a)` compares strictly below +∞ is neither infinity, hence a real. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => exact absurd h (by simp [Ideal.cmp])
  | top => exact absurd h (by simp [Ideal.cmp])
  | coe r => exact ⟨r, rfl⟩

/-- The result shape of a reduction over all axes has a single index. -/
theorem subsingleton_scalar_idx : Subsingleton S_.Idx := ⟨fun a b => funext fun d => d.elim0⟩

/-- Under the precondition every entry of the points and of the centroids is a real number. -/
theorem real_of_pre [Cert.Pre_finite_inputs.Facts] (x0 : FVec Ideal S100000x64 .f32) (x1 : IVec S100000 32) (x2 : FVec Ideal S64x64 .f32)
    (h : Cert.Pre_finite_inputs.fn (F := Ideal) x0 x1 x2 = fun _ => 1#1) :
    (∀ i, ∃ r : ℝ, x0 i = (r : EReal)) ∧ (∀ i, ∃ r : ℝ, x2 i = (r : EReal)) := by
  haveI := subsingleton_scalar_idx
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_abs_lt (x0 i) e
  · have e := Host.reduce_andi_all _ _ _ _ _ hb i
    exact real_of_abs_lt (x2 i) e

end Cert.Finite

end
-- ==== Proof.lean ====
/-
  The kernel computes a clustering loss over 100000 points in 64 coordinates, 64 centroids and one label per point:
  per cluster, the mean squared distance of its points to their own centroid (attraction) and the mean of the squared
  hinge (10 − distance)² of its points to the other 63 centroids (repulsion), summed over the non-empty clusters and
  divided by their number. It sweeps the points in ten blocks, keeping three running arrays (distance sums, squared
  distance sums, counts) and folds them at the last block; the reference computes every distance at once.

  Both results are written as the two arrangements of `Cert.Spec` (Proof/Spec.lean): the kernel's run ends at `kres`
  (Proof/KRun.lean, over the point-by-point accumulation of Proof/KAccum.lean), the reference's at `rres`
  (Proof/RefValue.lean), and on finite inputs — which is what the precondition says (Proof/Finite.lean) — the two are
  equal (Proof/SpecLaw.lean). The frames of the two kernel programs are the generated ones; the reference's is its
  run with the result dropped. The idealization rewrote nothing, so there is nothing to preserve.
-/
import proofs.«123934_g74603581931673_cont_9to1_m_1323_19_alg».proof.Defs
import proofs.«123934_g74603581931673_cont_9to1_m_1323_19_alg».proof.Proof.Gen.Kernel
import proofs.«123934_g74603581931673_cont_9to1_m_1323_19_alg».proof.Proof.Gen.Kernel.Frame
import proofs.«123934_g74603581931673_cont_9to1_m_1323_19_alg».proof.Proof.Gen.KernelIdeal
import proofs.«123934_g74603581931673_cont_9to1_m_1323_19_alg».proof.Proof.Gen.KernelIdeal.Frame
import proofs.«123934_g74603581931673_cont_9to1_m_1323_19_alg».proof.Proof.Gen.ReferenceIdeal
import proofs.«123934_g74603581931673_cont_9to1_m_1323_19_alg».proof.Proof.Gen.Pre_finite_inputs
import proofs.«123934_g74603581931673_cont_9to1_m_1323_19_alg».proof.Proof.KRun
import proofs.«123934_g74603581931673_cont_9to1_m_1323_19_alg».proof.Proof.RefValue
import proofs.«123934_g74603581931673_cont_9to1_m_1323_19_alg».proof.Proof.SpecLaw
import proofs.«123934_g74603581931673_cont_9to1_m_1323_19_alg».proof.Proof.Finite
import Idealize.ShloMosaic.Adequacy
import Idealize.ShloMosaic.Init

noncomputable section

namespace Cert.Proof

open Idealize.ShloMosaic Idealize.ShloMosaic.TcCoe Idealize.SL.Sem

instance : Cert.Pre_finite_inputs.Facts := Cert.Pre_finite_inputs.Gen.facts

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at one number: the kernel at the first arrangement of the loss, the reference at the second, and
    the arguments, which agree, are finite by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.kres (Cert.KernelIdeal.Acc.argE m c) (Cert.KernelIdeal.Acc.argL m c) (Cert.KernelIdeal.Acc.argC m c),
    Cert.KernelIdeal.Acc.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hE, hC⟩ := Cert.Finite.real_of_pre _ _ _ (hpre c)
  rw [Cert.ReferenceIdeal.Read.val_main_v51_eq, Cert.ReferenceIdeal.RefValue.ref_result, (hagree c).1, (hagree c).2.1, (hagree c).2.2]
  exact funext fun _ => (Cert.Spec.kres_eq_rres _ _ _ hE hC).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
